-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x16 .f32) (main_arg9 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg8
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg9 main_v33

def fn {F : FTy → Type} [FloatOps F] (main_arg0 : FVec F S100000x256 .f32) (main_arg1 : IVec S1600000 32) (main_arg2 : IVec S1600000 32) (main_arg3 : FVec F S1600000 .f32) (main_arg4 : FVec F S256x64 .f32) (main_arg5 : FVec F S64 .f32) (main_arg6 : FVec F S64x64 .f32) (main_arg7 : FVec F S64 .f32) (main_arg8 : FVec F S64x16 .f32) (main_arg9 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 67
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x16, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x16, .f32⟩
  | .hbm, ⟨58, _⟩ => ⟨S1600000x1, .f32⟩
  | .hbm, ⟨59, _⟩ => ⟨S1600000x16, .f32⟩
  | .hbm, ⟨60, _⟩ => ⟨S1600000x16, .f32⟩
  | .hbm, ⟨61, _⟩ => ⟨S_, .f32⟩
  | .hbm, ⟨62, _⟩ => ⟨S100000x16, .f32⟩
  | .hbm, ⟨63, _⟩ => ⟨S1600000x1, .i32⟩
  | .hbm, ⟨64, _⟩ => ⟨S100000x16, .f32⟩
  | .hbm, ⟨65, _⟩ => ⟨S1x16, .f32⟩
  | .hbm, ⟨66, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x1, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x16, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x16, .f32⟩
  | .hbm, ⟨66, _⟩ => ⟨S1600000x1, .f32⟩
  | .hbm, ⟨67, _⟩ => ⟨S1600000x16, .f32⟩
  | .hbm, ⟨68, _⟩ => ⟨S1600000x16, .f32⟩
  | .hbm, ⟨69, _⟩ => ⟨S_, .f32⟩
  | .hbm, ⟨70, _⟩ => ⟨S100000x16, .f32⟩
  | .hbm, ⟨71, _⟩ => ⟨S1600000x1, .i32⟩
  | .hbm, ⟨72, _⟩ => ⟨S100000x16, .f32⟩
  | .hbm, ⟨73, _⟩ => ⟨S1x16, .f32⟩
  | .hbm, ⟨74, _⟩ => ⟨S100000x16, .f32⟩
  | .hbm, ⟨75, _⟩ => ⟨S100000x16, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x16, .f32⟩
  | .hbm, ⟨83, _⟩ => ⟨S100000x16, .f32⟩
  | .hbm, ⟨84, _⟩ => ⟨S100000x16, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x1, .f32⟩
  | .hbm, ⟨89, _⟩ => ⟨S100000x16, .f32⟩
  | .hbm, ⟨90, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_call2_cst_0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_cst_1 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_v53 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.Layers.lean ====
/-
  The specification: the reference's result as a composition of named layers, each a whole-array function.

  A graph-convolution layer is  A · (H · W) + b  followed by a pointwise map, where A is the adjacency given as a weighted
  edge list: (A · S)[d, :] = Σ over edges e with dst e = d of  w e · S[src e, :].  Here `dense*` is H · W (a sum over the
  inner axis), `spmm*` is S ↦ A · S (negative source indices wrapped once by the number of nodes, rows gathered, scaled by the
  edge weight, scatter-added into zeros), `reluRow` is  max (a + row, 0)  with the bias laid along every row, and `logSoftmaxRow`
  is  z − max_j z − log Σ_j exp (z − max_j z)  of  z = a + row,  row by row.  `net` composes three such layers.
-/
import proofs.«150763_j2199023255969_1_alg».proof.ReferenceIdeal
import proofs.«150763_j2199023255969_1_alg».proof.Proof.Gen.ReferenceIdeal

noncomputable section

namespace Cert.ReferenceIdeal.Layers

open Cert.ReferenceIdeal Cert.ReferenceIdeal.Gen Idealize.ShloMosaic Idealize.ShloMosaic.TcCoe

variable {F : FTy → Type} [FloatOps F]

/-- A source index below zero is wrapped once by the node count; any other is kept. -/
def wrapSrc (src : (⟨S1600000, .i32⟩ : BufTy).Contents (Elt F)) : (⟨S1600000, .i32⟩ : BufTy).Contents (Elt F) :=
  select (cmpi .slt src (broadcastInDim S1600000 ![] bcast_S_S1600000 (constantI S_ 32 0#32)))
    (addi src (broadcastInDim S1600000 ![] bcast_S_S1600000 (constantI S_ 32 100000#32))) src

/-- S ↦ A · S for 64 features: gather the source rows, scale each by its edge's weight, add into the destination rows. -/
def spmm64 (src dst : (⟨S1600000, .i32⟩ : BufTy).Contents (Elt F)) (ew : (⟨S1600000, .f32⟩ : BufTy).Contents (Elt F)) (s : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 s
        (broadcastInDim S1600000x1 ![0] bcast_S1600000_S1600000x1_0 (wrapSrc src)))
      (broadcastInDim S1600000x64 ![0, 1] bcast_S1600000x1_S1600000x64_0_1
        (broadcastInDim S1600000x1 ![0] bcast_S1600000_S1600000x1_0 ew)))

/-- S ↦ A · S for 16 features. -/
def spmm16 (src dst : (⟨S1600000, .i32⟩ : BufTy).Contents (Elt F)) (ew : (⟨S1600000, .f32⟩ : BufTy).Contents (Elt F)) (s : (⟨S100000x16, .f32⟩ : BufTy).Contents (Elt F)) : (⟨S100000x16, .f32⟩ : BufTy).Contents (Elt F) :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 dst)
    (mulf (Host.gather gather_S100000x16_S1600000x1_S1600000x16_1_0_n_n_0_1_116 s
        (broadcastInDim S1600000x1 ![0] bcast_S1600000_S1600000x1_0 (wrapSrc src)))
      (broadcastInDim S1600000x16 ![0, 1] bcast_S1600000x1_S1600000x16_0_1
        (broadcastInDim S1600000x1 ![0] bcast_S1600000_S1600000x1_0 ew)))

/-- X · W, 256 → 64. -/
def dense1 (x : (⟨S100000x256, .f32⟩ : BufTy).Contents (Elt F)) (w : (⟨S256x64, .f32⟩ : BufTy).Contents (Elt F)) : (⟨S100000x64, .f32⟩ : BufTy).Contents (Elt F) :=
  Host.dotGeneral dot_S100000x256_S256x64_S100000x64_1_0_0_1_n_n none x w
/-- H · W, 64 → 64. -/
def dense2 (x : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none x w
/-- H · W, 64 → 16. -/
def dense3 (x : (⟨S100000x64, .f32⟩ : BufTy).Contents (Elt F)) (w : (⟨S64x16, .f32⟩ : BufTy).Contents (Elt F)) : (⟨S100000x16, .f32⟩ : BufTy).Contents (Elt F) :=
  Host.dotGeneral dot_S100000x64_S64x16_S100000x16_1_0_0_1_n_n none x w

/-- A bias as one row. -/
def row64 (b : (⟨S64, .f32⟩ : BufTy).Contents (Elt F)) : (⟨S1x64, .f32⟩ : BufTy).Contents (Elt F) := broadcastInDim S1x64 ![1] bcast_S64_S1x64_1 b
def row16 (b : (⟨S16, .f32⟩ : BufTy).Contents (Elt F)) : (⟨S1x16, .f32⟩ : BufTy).Contents (Elt F) := broadcastInDim S1x16 ![1] bcast_S16_S1x16_1 b

/-- max (a + row, 0), the row laid along every row of `a`. -/
def reluRow (a : (⟨S100000x64, .f32⟩ : BufTy).Contents (Elt F)) (row : (⟨S1x64, .f32⟩ : BufTy).Contents (Elt F)) : (⟨S100000x64, .f32⟩ : BufTy).Contents (Elt F) :=
  maximumf (addf a (broadcastInDim S100000x64 ![0, 1] bcast_S1x64_S100000x64_0_1 row))
    (broadcastInDim S100000x64 ![] bcast_S_S100000x64 (constant S_ .f32 0x00000000#32))

/-- Each row's maximum (from −∞, and once more against −∞), laid back along its row. -/
def rowMax (z : (⟨S100000x16, .f32⟩ : BufTy).Contents (Elt F)) : (⟨S100000x16, .f32⟩ : BufTy).Contents (Elt F) :=
  broadcastInDim S100000x16 ![0, 1] bcast_S100000x1_S100000x16_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x16_S100000_d1 h_S_)))

/-- z − max − log Σ exp (z − max), row by row. -/
def logSoftmax (z : (⟨S100000x16, .f32⟩ : BufTy).Contents (Elt F)) : (⟨S100000x16, .f32⟩ : BufTy).Contents (Elt F) :=
  subf (subf z (rowMax z))
    (broadcastInDim S100000x16 ![0, 1] bcast_S100000x1_S100000x16_0_1
      (Host.log (broadcastInDim S100000x1 ![0] bcast_S100000_S100000x1_0
        (Host.reduceAdd (Host.exp (subf z (rowMax z))) (constant S_ .f32 0x00000000#32) reducesTo_S100000x16_S100000_d1 h_S_))))

/-- log-softmax of a + row. -/
def logSoftmaxRow (a : (⟨S100000x16, .f32⟩ : BufTy).Contents (Elt F)) (row : (⟨S1x16, .f32⟩ : BufTy).Contents (Elt F)) : (⟨S100000x16, .f32⟩ : BufTy).Contents (Elt F) :=
  logSoftmax (addf a (broadcastInDim S100000x16 ![0, 1] bcast_S1x16_S100000x16_0_1 row))

/-- The network: three graph-convolution layers, relu after the first two, log-softmax after the third. -/
def net (x : (⟨S100000x256, .f32⟩ : BufTy).Contents (Elt F)) (src dst : (⟨S1600000, .i32⟩ : BufTy).Contents (Elt F)) (ew : (⟨S1600000, .f32⟩ : BufTy).Contents (Elt F))
    (w1 : (⟨S256x64, .f32⟩ : BufTy).Contents (Elt F)) (b1 : (⟨S64, .f32⟩ : BufTy).Contents (Elt F)) (wh : (⟨S64x64, .f32⟩ : BufTy).Contents (Elt F)) (bh : (⟨S64, .f32⟩ : BufTy).Contents (Elt F))
    (w2 : (⟨S64x16, .f32⟩ : BufTy).Contents (Elt F)) (b2 : (⟨S16, .f32⟩ : BufTy).Contents (Elt F)) : (⟨S100000x16, .f32⟩ : BufTy).Contents (Elt F) :=
  logSoftmaxRow
    (spmm16 src dst ew (dense3
      (reluRow (spmm64 src dst ew (dense2
        (reluRow (spmm64 src dst ew (dense1 x w1)) (row64 b1)) wh)) (row64 bh)) w2))
    (row16 b2)

end Cert.ReferenceIdeal.Layers

end
-- ==== Proof.KChain.lean ====
/-
  The kernel program's result as a function of its arguments.

  Between its six kernel regions the program runs the same host operations as the reference: after each matrix product
  the adjacency product S ↦ A · S (`spmm64`, `spmm16`) and the next bias cast to one row. Read at a variable valuation, a host
  stretch's two results are those layers of the buffers it reads; a bias cast to a one-row matrix is the bias laid along
  axis 1 of one. No region and no host operation writes an argument, so every argument is read as launched. Composing the
  stretches with what each region leaves in its output array (hypotheses `f0 … f5`: one whole-array layer of the region's
  two input arrays each) gives the network of Layers.lean at the arguments.
-/
import proofs.«150763_j2199023255969_1_alg».proof.Proof.Gen.KernelIdeal.Frame
import proofs.«150763_j2199023255969_1_alg».proof.Proof.Layers
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open Cert.ReferenceIdeal.Layers

/-! ## The host stretches, at a variable valuation -/

section Stretches

variable {F : FTy → Type} [FloatOps F]

/-- A 64-entry bias cast to a one-row matrix is the bias laid along axis 1 of one: entry (0, q) of either is entry q. -/
theorem cast_row64 (b : (⟨S64, .f32⟩ : BufTy).Contents (Elt F)) :
    (shapeCast S1x64 b shapeCasts_S64_S1x64 : S1x64.Idx → Elt F .f32) = row64 (F := F) b := by
  funext i
  have e2 := shapeCast_apply b shapeCasts_S64_S1x64 i (ix1 (i 1 : Fin 64)) (by
    rw [Shape.rowMajor_val_two, Shape.rowMajor_val_one]
    show (i 1).val = (i 0).val * 64 + (i 1).val
    have : (i 0).val < 1 := (i 0).isLt
    omega)
  have e3 := broadcastInDim_apply ![1] Cert.ReferenceIdeal.Gen.bcast_S64_S1x64_1 b i (ix1 (i 1 : Fin 64)) (by
    intro a
    match a with
    | ⟨0, _⟩ => show (i 1).val = if (64 : Nat) = 1 then 0 else (i 1).val; rw [if_neg (by decide)])
  exact e2.trans e3.symm

/-- The same for the 16-entry bias. -/
theorem cast_row16 (b : (⟨S16, .f32⟩ : BufTy).Contents (Elt F)) :
    (shapeCast S1x16 b shapeCasts_S16_S1x16 : S1x16.Idx → Elt F .f32) = row16 (F := F) b := by
  funext i
  have e2 := shapeCast_apply b shapeCasts_S16_S1x16 i (ix1 (i 1 : Fin 16)) (by
    rw [Shape.rowMajor_val_two, Shape.rowMajor_val_one]
    show (i 1).val = (i 0).val * 16 + (i 1).val
    have : (i 0).val < 1 := (i 0).isLt
    omega)
  have e3 := broadcastInDim_apply ![1] Cert.ReferenceIdeal.Gen.bcast_S16_S1x16_1 b i (ix1 (i 1 : Fin 16)) (by
    intro a
    match a with
    | ⟨0, _⟩ => show (i 1).val = if (16 : Nat) = 1 then 0 else (i 1).val; rw [if_neg (by decide)])
  exact e2.trans e3.symm

set_option maxHeartbeats 4000000 in
/-- After the first matrix product: the adjacency product of its result … -/
theorem stretch1_agg (W : Valuation τ sig (Elt F)) :
    after (hostOps1 (F := F)) W (Proc.devRef .tc main_v13)
      = spmm64 (F := F) (W (Proc.devRef .tc main_arg1)) (W (Proc.devRef .tc main_arg2)) (W (Proc.devRef .tc main_arg3)) (W (Proc.devRef .tc main_v0)) := by
  after_results
  unfold spmm64 wrapSrc
  rfl
set_option maxHeartbeats 4000000 in
/-- … and the first bias as one row. -/
theorem stretch1_row (W : Valuation τ sig (Elt F)) :
    after (hostOps1 (F := F)) W (Proc.devRef .tc main_v14) = row64 (F := F) (W (Proc.devRef .tc main_arg5)) := by
  after_results
  exact cast_row64 (W (Proc.devRef .tc main_arg5))

set_option maxHeartbeats 4000000 in
/-- After the second matrix product. -/
theorem stretch3_agg (W : Valuation τ sig (Elt F)) :
    after (hostOps3 (F := F)) W (Proc.devRef .tc main_v29)
      = spmm64 (F := F) (W (Proc.devRef .tc main_arg1)) (W (Proc.devRef .tc main_arg2)) (W (Proc.devRef .tc main_arg3)) (W (Proc.devRef .tc main_v16)) := by
  after_results
  unfold spmm64 wrapSrc
  rfl
set_option maxHeartbeats 4000000 in
theorem stretch3_row (W : Valuation τ sig (Elt F)) :
    after (hostOps3 (F := F)) W (Proc.devRef .tc main_v30) = row64 (F := F) (W (Proc.devRef .tc main_arg7)) := by
  after_results
  exact cast_row64 (W (Proc.devRef .tc main_arg7))

set_option maxHeartbeats 4000000 in
/-- After the third matrix product, at 16 features. -/
theorem stretch5_agg (W : Valuation τ sig (Elt F)) :
    after (hostOps5 (F := F)) W (Proc.devRef .tc main_v45)
      = spmm16 (F := F) (W (Proc.devRef .tc main_arg1)) (W (Proc.devRef .tc main_arg2)) (W (Proc.devRef .tc main_arg3)) (W (Proc.devRef .tc main_v32)) := by
  after_results
  unfold spmm16 wrapSrc
  rfl
set_option maxHeartbeats 4000000 in
theorem stretch5_row (W : Valuation τ sig (Elt F)) :
    after (hostOps5 (F := F)) W (Proc.devRef .tc main_v46) = row16 (F := F) (W (Proc.devRef .tc main_arg9)) := by
  after_results
  exact cast_row16 (W (Proc.devRef .tc main_arg9))

end Stretches

/-! ## The arguments, read at each boundary as launched -/

variable (m : (ℓ : Loc nD τ sig) → Buf (Elt Ideal) ℓ) (ρ : Dev nD → PrngReg)

/-- No operation of a host stretch writes the buffer (decided reference by reference). -/
local macro "not_written" : tactic => `(tactic| (
  refine List.forall_iff_forall_mem.mp ?_
  simp only [hostOps1, hostOps3, hostOps5, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! No operation of the first (second) host stretch writes an argument that something later reads. -/
set_option maxHeartbeats 4000000 in
theorem nw1_arg1 : ∀ op ∈ (hostOps1 : List (HloOp τ sig (Elt Ideal))), Proc.devRef .tc main_arg1 ∉ op.writes := by not_written
set_option maxHeartbeats 4000000 in
theorem nw1_arg2 : ∀ op ∈ (hostOps1 : List (HloOp τ sig (Elt Ideal))), Proc.devRef .tc main_arg2 ∉ op.writes := by not_written
set_option maxHeartbeats 4000000 in
theorem nw1_arg3 : ∀ op ∈ (hostOps1 : List (HloOp τ sig (Elt Ideal))), Proc.devRef .tc main_arg3 ∉ op.writes := by not_written
set_option maxHeartbeats 4000000 in
theorem nw1_arg6 : ∀ op ∈ (hostOps1 : List (HloOp τ sig (Elt Ideal))), Proc.devRef .tc main_arg6 ∉ op.writes := by not_written
set_option maxHeartbeats 4000000 in
theorem nw1_arg7 : ∀ op ∈ (hostOps1 : List (HloOp τ sig (Elt Ideal))), Proc.devRef .tc main_arg7 ∉ op.writes := by not_written
set_option maxHeartbeats 4000000 in
theorem nw1_arg8 : ∀ op ∈ (hostOps1 : List (HloOp τ sig (Elt Ideal))), Proc.devRef .tc main_arg8 ∉ op.writes := by not_written
set_option maxHeartbeats 4000000 in
theorem nw1_arg9 : ∀ op ∈ (hostOps1 : List (HloOp τ sig (Elt Ideal))), Proc.devRef .tc main_arg9 ∉ op.writes := by not_written
set_option maxHeartbeats 4000000 in
theorem nw3_arg1 : ∀ op ∈ (hostOps3 : List (HloOp τ sig (Elt Ideal))), Proc.devRef .tc main_arg1 ∉ op.writes := by not_written
set_option maxHeartbeats 4000000 in
theorem nw3_arg2 : ∀ op ∈ (hostOps3 : List (HloOp τ sig (Elt Ideal))), Proc.devRef .tc main_arg2 ∉ op.writes := by not_written
set_option maxHeartbeats 4000000 in
theorem nw3_arg3 : ∀ op ∈ (hostOps3 : List (HloOp τ sig (Elt Ideal))), Proc.devRef .tc main_arg3 ∉ op.writes := by not_written
set_option maxHeartbeats 4000000 in
theorem nw3_arg8 : ∀ op ∈ (hostOps3 : List (HloOp τ sig (Elt Ideal))), Proc.devRef .tc main_arg8 ∉ op.writes := by not_written
set_option maxHeartbeats 4000000 in
theorem nw3_arg9 : ∀ op ∈ (hostOps3 : List (HloOp τ sig (Elt Ideal))), Proc.devRef .tc main_arg9 ∉ op.writes := by not_written

/-- A buffer that region 0 does not stage keeps its launch contents through it. -/
theorem at1 (c : Dev nD) (b : Ref sig .tc) (h0 : ∀ w, Pipeline.arrRef spec0 w ≠ b) :
    W1 m ρ c (Proc.devRef .tc b) = m ((c.tc : Thread nD τ).loc b) :=
  (W1_of_ne m ρ c b h0).trans rfl
/-- … and through the first host stretch and region 1, if they do not write it … -/
theorem at3 (c : Dev nD) (b : Ref sig .tc) (h0 : ∀ w, Pipeline.arrRef spec0 w ≠ b)
    (hh1 : ∀ op ∈ (hostOps1 : List (HloOp τ sig (Elt Ideal))), Proc.devRef .tc b ∉ op.writes)
    (h1 : ∀ w, Pipeline.arrRef spec1 w ≠ b) :
    W3 m ρ c (Proc.devRef .tc b) = m ((c.tc : Thread nD τ).loc b) :=
  (W3_of_ne m ρ c b h1).trans ((StableHlo.after_of_forall_not_mem _ _ hh1).trans (at1 m ρ c b h0))
/-- … through region 2 … -/
theorem at4 (c : Dev nD) (b : Ref sig .tc) (h0 : ∀ w, Pipeline.arrRef spec0 w ≠ b)
    (hh1 : ∀ op ∈ (hostOps1 : List (HloOp τ sig (Elt Ideal))), Proc.devRef .tc b ∉ op.writes)
    (h1 : ∀ w, Pipeline.arrRef spec1 w ≠ b) (h2 : ∀ w, Pipeline.arrRef spec2 w ≠ b) :
    W4 m ρ c (Proc.devRef .tc b) = m ((c.tc : Thread nD τ).loc b) :=
  (W4_of_ne m ρ c b h2).trans (at3 m ρ c b h0 hh1 h1)
/-- … through the second host stretch and region 3 … -/
theorem at6 (c : Dev nD) (b : Ref sig .tc) (h0 : ∀ w, Pipeline.arrRef spec0 w ≠ b)
    (hh1 : ∀ op ∈ (hostOps1 : List (HloOp τ sig (Elt Ideal))), Proc.devRef .tc b ∉ op.writes)
    (h1 : ∀ w, Pipeline.arrRef spec1 w ≠ b) (h2 : ∀ w, Pipeline.arrRef spec2 w ≠ b)
    (hh3 : ∀ op ∈ (hostOps3 : List (HloOp τ sig (Elt Ideal))), Proc.devRef .tc b ∉ op.writes)
    (h3 : ∀ w, Pipeline.arrRef spec3 w ≠ b) :
    W6 m ρ c (Proc.devRef .tc b) = m ((c.tc : Thread nD τ).loc b) :=
  (W6_of_ne m ρ c b h3).trans ((StableHlo.after_of_forall_not_mem _ _ hh3).trans (at4 m ρ c b h0 hh1 h1 h2))
/-- … and through region 4. -/
theorem at7 (c : Dev nD) (b : Ref sig .tc) (h0 : ∀ w, Pipeline.arrRef spec0 w ≠ b)
    (hh1 : ∀ op ∈ (hostOps1 : List (HloOp τ sig (Elt Ideal))), Proc.devRef .tc b ∉ op.writes)
    (h1 : ∀ w, Pipeline.arrRef spec1 w ≠ b) (h2 : ∀ w, Pipeline.arrRef spec2 w ≠ b)
    (hh3 : ∀ op ∈ (hostOps3 : List (HloOp τ sig (Elt Ideal))), Proc.devRef .tc b ∉ op.writes)
    (h3 : ∀ w, Pipeline.arrRef spec3 w ≠ b) (h4 : ∀ w, Pipeline.arrRef spec4 w ≠ b) :
    W7 m ρ c (Proc.devRef .tc b) = m ((c.tc : Thread nD τ).loc b) :=
  (W7_of_ne m ρ c b h4).trans (at6 m ρ c b h0 hh1 h1 h2 hh3 h3)

/-! ## The fold through @main -/

set_option maxHeartbeats 4000000 in
/-- The result array after the run is the network of the argument arrays as launched. -/
theorem result
    (f0 : ∀ (V : (c : Dev nD) → (b : Ref sig .tc) → Buf (Elt Ideal) ((c : Thread nD τ).loc b)) (c : Dev nD),
      (dat0 V c).arrAt 2 cfg0.N = dense1 (F := Ideal) (V c main_arg0) (V c main_arg4))
    (f1 : ∀ (V : (c : Dev nD) → (b : Ref sig .tc) → Buf (Elt Ideal) ((c : Thread nD τ).loc b)) (c : Dev nD),
      (dat1 V c).arrAt 2 cfg1.N = reluRow (F := Ideal) (V c main_v13) (V c main_v14))
    (f2 : ∀ (V : (c : Dev nD) → (b : Ref sig .tc) → Buf (Elt Ideal) ((c : Thread nD τ).loc b)) (c : Dev nD),
      (dat2 V c).arrAt 2 cfg2.N = dense2 (F := Ideal) (V c main_v15) (V c main_arg6))
    (f3 : ∀ (V : (c : Dev nD) → (b : Ref sig .tc) → Buf (Elt Ideal) ((c : Thread nD τ).loc b)) (c : Dev nD),
      (dat3 V c).arrAt 2 cfg3.N = reluRow (F := Ideal) (V c main_v29) (V c main_v30))
    (f4 : ∀ (V : (c : Dev nD) → (b : Ref sig .tc) → Buf (Elt Ideal) ((c : Thread nD τ).loc b)) (c : Dev nD),
      (dat4 V c).arrAt 2 cfg4.N = dense3 (F := Ideal) (V c main_v31) (V c main_arg8))
    (f5 : ∀ (V : (c : Dev nD) → (b : Ref sig .tc) → Buf (Elt Ideal) ((c : Thread nD τ).loc b)) (c : Dev nD),
      (dat5 V c).arrAt 2 cfg5.N = logSoftmaxRow (F := Ideal) (V c main_v45) (V c main_v46))
    (c : Dev nD) :
    W9 m ρ c (Proc.devRef .tc main_v47) = net (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  -- the first matrix product
  have e0 : W1 m ρ c (Proc.devRef .tc main_v0) = dense1 (F := Ideal) (m ((c.tc : Thread nD τ).loc main_arg0)) (m ((c.tc : Thread nD τ).loc main_arg4)) :=
    (W1_arr m ρ c 2).trans (f0 (V0 m ρ) c)
  -- the first host stretch
  have e13 : W2 m ρ c (Proc.devRef .tc main_v13) = spmm64 (F := Ideal) (m ((c.tc : Thread nD τ).loc main_arg1)) (m ((c.tc : Thread nD τ).loc main_arg2)) (m ((c.tc : Thread nD τ).loc main_arg3))
      (dense1 (F := Ideal) (m ((c.tc : Thread nD τ).loc main_arg0)) (m ((c.tc : Thread nD τ).loc main_arg4))) := by
    show after hostOps1 (W1 m ρ c) (Proc.devRef .tc main_v13) = _
    rw [stretch1_agg, e0, at1 m ρ c main_arg1 (by decide), at1 m ρ c main_arg2 (by decide), at1 m ρ c main_arg3 (by decide)]
  have e14 : W2 m ρ c (Proc.devRef .tc main_v14) = row64 (F := Ideal) (m ((c.tc : Thread nD τ).loc main_arg5)) := by
    show after hostOps1 (W1 m ρ c) (Proc.devRef .tc main_v14) = _
    rw [stretch1_row, at1 m ρ c main_arg5 (by decide)]
  -- the first bias and relu
  have e15 : W3 m ρ c (Proc.devRef .tc main_v15) = reluRow (F := Ideal)
      (spmm64 (F := Ideal) (m ((c.tc : Thread nD τ).loc main_arg1)) (m ((c.tc : Thread nD τ).loc main_arg2)) (m ((c.tc : Thread nD τ).loc main_arg3)) (dense1 (F := Ideal) (m ((c.tc : Thread nD τ).loc main_arg0)) (m ((c.tc : Thread nD τ).loc main_arg4)))) (row64 (F := Ideal) (m ((c.tc : Thread nD τ).loc main_arg5))) := by
    refine (W3_arr m ρ c 2).trans ((f1 (V2 m ρ) c).trans ?_)
    show reluRow (F := Ideal) (W2 m ρ c (Proc.devRef .tc main_v13)) (W2 m ρ c (Proc.devRef .tc main_v14)) = _
    rw [e13, e14]
  -- the second matrix product
  have e16 : W4 m ρ c (Proc.devRef .tc main_v16) = dense2 (F := Ideal) (reluRow (F := Ideal)
      (spmm64 (F := Ideal) (m ((c.tc : Thread nD τ).loc main_arg1)) (m ((c.tc : Thread nD τ).loc main_arg2)) (m ((c.tc : Thread nD τ).loc main_arg3)) (dense1 (F := Ideal) (m ((c.tc : Thread nD τ).loc main_arg0)) (m ((c.tc : Thread nD τ).loc main_arg4)))) (row64 (F := Ideal) (m ((c.tc : Thread nD τ).loc main_arg5)))) (m ((c.tc : Thread nD τ).loc main_arg6)) := by
    refine (W4_arr m ρ c 2).trans ((f2 (V3 m ρ) c).trans ?_)
    show dense2 (F := Ideal) (W3 m ρ c (Proc.devRef .tc main_v15)) (W3 m ρ c (Proc.devRef .tc main_arg6)) = _
    rw [e15, at3 m ρ c main_arg6 (by decide) nw1_arg6 (by decide)]
  generalize hL1 : dense2 (F := Ideal) (reluRow (F := Ideal)
      (spmm64 (F := Ideal) (m ((c.tc : Thread nD τ).loc main_arg1)) (m ((c.tc : Thread nD τ).loc main_arg2)) (m ((c.tc : Thread nD τ).loc main_arg3)) (dense1 (F := Ideal) (m ((c.tc : Thread nD τ).loc main_arg0)) (m ((c.tc : Thread nD τ).loc main_arg4)))) (row64 (F := Ideal) (m ((c.tc : Thread nD τ).loc main_arg5)))) (m ((c.tc : Thread nD τ).loc main_arg6)) = s2 at e16
  -- the second host stretch
  have e29 : W5 m ρ c (Proc.devRef .tc main_v29) = spmm64 (F := Ideal) (m ((c.tc : Thread nD τ).loc main_arg1)) (m ((c.tc : Thread nD τ).loc main_arg2)) (m ((c.tc : Thread nD τ).loc main_arg3)) s2 := by
    show after hostOps3 (W4 m ρ c) (Proc.devRef .tc main_v29) = _
    rw [stretch3_agg, e16, at4 m ρ c main_arg1 (by decide) nw1_arg1 (by decide) (by decide),
      at4 m ρ c main_arg2 (by decide) nw1_arg2 (by decide) (by decide),
      at4 m ρ c main_arg3 (by decide) nw1_arg3 (by decide) (by decide)]
  have e30 : W5 m ρ c (Proc.devRef .tc main_v30) = row64 (F := Ideal) (m ((c.tc : Thread nD τ).loc main_arg7)) := by
    show after hostOps3 (W4 m ρ c) (Proc.devRef .tc main_v30) = _
    rw [stretch3_row, at4 m ρ c main_arg7 (by decide) nw1_arg7 (by decide) (by decide)]
  -- the second bias and relu
  have e31 : W6 m ρ c (Proc.devRef .tc main_v31) = reluRow (F := Ideal) (spmm64 (F := Ideal) (m ((c.tc : Thread nD τ).loc main_arg1)) (m ((c.tc : Thread nD τ).loc main_arg2)) (m ((c.tc : Thread nD τ).loc main_arg3)) s2) (row64 (F := Ideal) (m ((c.tc : Thread nD τ).loc main_arg7))) := by
    refine (W6_arr m ρ c 2).trans ((f3 (V5 m ρ) c).trans ?_)
    show reluRow (F := Ideal) (W5 m ρ c (Proc.devRef .tc main_v29)) (W5 m ρ c (Proc.devRef .tc main_v30)) = _
    rw [e29, e30]
  -- the third matrix product
  have e32 : W7 m ρ c (Proc.devRef .tc main_v32) = dense3 (F := Ideal)
      (reluRow (F := Ideal) (spmm64 (F := Ideal) (m ((c.tc : Thread nD τ).loc main_arg1)) (m ((c.tc : Thread nD τ).loc main_arg2)) (m ((c.tc : Thread nD τ).loc main_arg3)) s2) (row64 (F := Ideal) (m ((c.tc : Thread nD τ).loc main_arg7)))) (m ((c.tc : Thread nD τ).loc main_arg8)) := by
    refine (W7_arr m ρ c 2).trans ((f4 (V6 m ρ) c).trans ?_)
    show dense3 (F := Ideal) (W6 m ρ c (Proc.devRef .tc main_v31)) (W6 m ρ c (Proc.devRef .tc main_arg8)) = _
    rw [e31, at6 m ρ c main_arg8 (by decide) nw1_arg8 (by decide) (by decide) nw3_arg8 (by decide)]
  generalize hL2 : dense3 (F := Ideal)
      (reluRow (F := Ideal) (spmm64 (F := Ideal) (m ((c.tc : Thread nD τ).loc main_arg1)) (m ((c.tc : Thread nD τ).loc main_arg2)) (m ((c.tc : Thread nD τ).loc main_arg3)) s2) (row64 (F := Ideal) (m ((c.tc : Thread nD τ).loc main_arg7)))) (m ((c.tc : Thread nD τ).loc main_arg8)) = s3 at e32
  -- the third host stretch
  have e45 : W8 m ρ c (Proc.devRef .tc main_v45) = spmm16 (F := Ideal) (m ((c.tc : Thread nD τ).loc main_arg1)) (m ((c.tc : Thread nD τ).loc main_arg2)) (m ((c.tc : Thread nD τ).loc main_arg3)) s3 := by
    show after hostOps5 (W7 m ρ c) (Proc.devRef .tc main_v45) = _
    rw [stretch5_agg, e32,
      at7 m ρ c main_arg1 (by decide) nw1_arg1 (by decide) (by decide) nw3_arg1 (by decide) (by decide),
      at7 m ρ c main_arg2 (by decide) nw1_arg2 (by decide) (by decide) nw3_arg2 (by decide) (by decide),
      at7 m ρ c main_arg3 (by decide) nw1_arg3 (by decide) (by decide) nw3_arg3 (by decide) (by decide)]
  have e46 : W8 m ρ c (Proc.devRef .tc main_v46) = row16 (F := Ideal) (m ((c.tc : Thread nD τ).loc main_arg9)) := by
    show after hostOps5 (W7 m ρ c) (Proc.devRef .tc main_v46) = _
    rw [stretch5_row, at7 m ρ c main_arg9 (by decide) nw1_arg9 (by decide) (by decide) nw3_arg9 (by decide) (by decide)]
  -- the last bias and the log-softmax
  refine (W9_arr m ρ c 2).trans ((f5 (V8 m ρ) c).trans ?_)
  show logSoftmaxRow (F := Ideal) (W8 m ρ c (Proc.devRef .tc main_v45)) (W8 m ρ c (Proc.devRef .tc main_v46)) = _
  rw [e45, e46, ← hL2, ← hL1]
  rfl

end Cert.KernelIdeal.Chain

end
-- ==== Proof.Relu1.lean ====
/-
  The first bias-and-relu region. Its grid has 20 points; point t stages rows 5000·t … 5000·t + 4999 of the aggregated
  features (all 64 columns) and the bias as one row, and writes back  max (a + bias, 0)  on those rows. An entry of the
  block depends on the same entry of the input block and on the bias entry of its column, so what point t writes back is
  the block of  `reluRow a row`  on its rows; the 20 blocks tile the 100000 rows, so the array ends holding that function.
-/
import proofs.«150763_j2199023255969_1_alg».proof.Proof.Gen.KernelIdeal.Frame
import proofs.«150763_j2199023255969_1_alg».proof.Proof.Layers
import Idealize.ShloMosaic.Lib.Pipeline.Value
import Idealize.ShloMosaic.Lib.ValueIdx
import Idealize.ShloMosaic.Lib.KernelVsHost

set_option maxRecDepth 16384

noncomputable section

namespace Cert.KernelIdeal.Relu1

open Cert.KernelIdeal Cert.KernelIdeal.Gen
open Idealize.ShloMosaic Idealize.ShloMosaic.TcCoe Idealize.SL.Sem Idealize.ShloMosaic.ValueIdx
open Idealize.ShloMosaic.Pipeline (Dat)
open Cert.ReferenceIdeal.Layers (reluRow)

variable (V : (c : Dev nD) → (b : Ref sig .tc) → Buf (Elt Ideal) ((c : Thread nD τ).loc b))

theorem hz : (![0, 0] : Fin 2 → Nat) = fun _ => 0 := funext fun a => by fin_cases a <;> rfl

/-- The body's value at row p, column q of the block: the input there plus the bias at column q, against zero. -/
theorem pay_apply (x0 : Vec Ideal S5000x64 .f32) (x1 : Vec Ideal S1x64 .f32) (p : Fin 5000) (q : Fin 64) :
    k1_pay1 (F := Ideal) x0 x1 (ix2 p q)
      = (max ((x0 (ix2 p q) : EReal) + x1 (ix2 (0 : Fin 1) q)) (FloatOps.ofBits (F := Ideal) .f32 0x00000000#32) : EReal) := by
  have hb : broadcastTo S5000x64 (x1 : S1x64.Idx → EReal) broadcasts_S1x64_S5000x64 (ix2 p q) = x1 (ix2 (0 : Fin 1) q) :=
    broadcastTo_apply _ _ (ix2 p q) (ix2 (0 : Fin 1) q) (by intro a; match a with | ⟨0, _⟩ => rfl | ⟨1, _⟩ => rfl)
  unfold k1_pay1
  simp only [shapeCast_self]
  show (max ((x0 (ix2 p q) : EReal) + broadcastTo S5000x64 (x1 : S1x64.Idx → EReal) broadcasts_S1x64_S5000x64 (ix2 p q)) _ : EReal) = _
  rw [hb]
  rfl

/-- The layer at row r, column q: the same expression of the whole arrays. -/
theorem reluRow_apply (a : Vec Ideal S100000x64 .f32) (row : Vec Ideal S1x64 .f32) (r : Fin 100000) (q : Fin 64) :
    reluRow (F := Ideal) a row (ix2 r q)
      = (max ((a (ix2 r q) : EReal) + row (ix2 (0 : Fin 1) q)) (FloatOps.ofBits (F := Ideal) .f32 0x00000000#32) : EReal) := by
  have hb : broadcastInDim (⟨2, ![100000, 64]⟩ : Shape) ![0, 1] Cert.ReferenceIdeal.Gen.bcast_S1x64_S100000x64_0_1 (row : (⟨2, ![1, 64]⟩ : Shape).Idx → EReal) (ix2 r q)
      = row (ix2 (0 : Fin 1) q) := broadcastInDim_oneRow_apply _ _ r q
  unfold reluRow
  show (max ((a (ix2 r q) : EReal) + broadcastInDim (⟨2, ![100000, 64]⟩ : Shape) ![0, 1] Cert.ReferenceIdeal.Gen.bcast_S1x64_S100000x64_0_1 (row : (⟨2, ![1, 64]⟩ : Shape).Idx → EReal) (ix2 r q)) _ : EReal) = _
  rw [hb]
  rfl

/-- The printed index maps over the grid: windows 0 and 2 sit at block row t, column block 0; the bias row at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is the block of `reluRow` of the region's two input arrays on rows 5000·t …. -/
theorem flushed (c : Dev nD) (t : Fin cfg1.N) :
    (dat1 V c).flushed 2 t = ((cfg1.win 2).blk t).view.read (Elt Ideal) (reluRow (F := Ideal) (V c main_v13) (V c main_v14)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  have hp : p.val < 5000 := p.isLt
  have hq : q.val < 64 := q.isLt
  have ht : t.val < 20 := Nat.lt_of_lt_of_eq t.isLt N_1
  show k1_pay1 (iblk1 V c 0 t) (iblk1 V c 1 t) (ix2 p q)
    = reluRow (F := Ideal) (V c main_v13) (V c main_v14) (((cfg1.win 2).blk t).view.emb (ix2 p q))
  have hemb : ((cfg1.win 2).blk t).view.emb (ix2 p q) = ix2 (⟨5000 * t.val + p.val, by omega⟩ : Fin 100000) q := by
    funext a; apply Fin.ext
    match a with
    | ⟨0, _⟩ => show win1_2.index t (0 : Fin 2) * 5000 + 1 * p.val = 5000 * t.val + p.val; omega
    | ⟨1, _⟩ => show win1_2.index t (1 : Fin 2) * 64 + 1 * q.val = q.val; omega
  rw [hemb, reluRow_apply, pay_apply]
  have h0 : iblk1 V c 0 t (ix2 p q) = V c main_v13 (ix2 (⟨5000 * t.val + p.val, by omega⟩ : Fin 100000) q) := by
    unfold iblk1
    rw [View.read_apply]
    show V c main_v13 _ = V c main_v13 _
    refine congrArg (V c main_v13) (funext fun a => Fin.ext ?_)
    match a with
    | ⟨0, _⟩ => show win1_0.index t (0 : Fin 2) * 5000 + 1 * p.val = 5000 * t.val + p.val; omega
    | ⟨1, _⟩ => show win1_0.index t (1 : Fin 2) * 64 + 1 * q.val = q.val; omega
  have h1 : iblk1 V c 1 t (ix2 (0 : Fin 1) q) = V c main_v14 (ix2 (0 : Fin 1) q) := by
    unfold iblk1
    rw [View.read_apply]
    show V c main_v14 _ = V c main_v14 _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  rw [h0, h1]

/-- An index of the array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v15).slice (win1_2.rect t)).set ↔ _
  rw [View.set_slice_whole, Rect.mem_set_unit]
  exact Iff.rfl

/-- Row r lies in the block of point r / 5000, which writes back. -/
theorem cover (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 20 := N_1
  refine ⟨⟨(i 0).val / 5000, by rw [hN]; omega⟩, flush1_2 _, ?_⟩
  rw [mem_blk]
  obtain ⟨-, -, -, -, e20, e21⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e21]; omega

/-- The region's output array after its run. -/
theorem final (c : Dev nD) : (dat1 V c).arrAt 2 cfg1.N = reluRow (F := Ideal) (V c main_v13) (V c main_v14) :=
  (dat1 V c).arrAt_eq_of_cover 2 _ (fun t _ => flushed V c t) cover

end Cert.KernelIdeal.Relu1

end
-- ==== Proof.Dense0.lean ====
/-
  The first matrix product,  out = x · w  with x of 100000 rows and 256 columns and w of 256 rows and 64 columns. Its grid
  has 20 points; point t stages rows 5000·t … 5000·t + 4999 of x (all 256 columns) and the whole of w, and writes back the
  product of the two staged blocks, accumulated into zeros. Entry (p, q) of that block product is  Σ_k x(5000·t + p, k) · w(k, q),
  which is entry (5000·t + p, q) of the whole product: the inner axis is never split, so each output row needs only its own
  row of x. Hence point t writes back the block of  dense1 x w  on its rows; the 20 blocks tile the 100000 rows, so the array
  ends holding that product.
-/
import proofs.«150763_j2199023255969_1_alg».proof.Proof.Gen.KernelIdeal.Frame
import proofs.«150763_j2199023255969_1_alg».proof.Proof.Layers
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product: which entries of its operands an output entry and a summation index meet -/

/-- The left operand's row is the output's row; -/
theorem blk_lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- its column is the summation index; -/
theorem blk_lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- the right operand's row is the summation index; -/
theorem blk_rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- and its column is the output's column. -/
theorem blk_rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's value at row p, column q of the block: the sum over the inner axis of the staged x block's row p against the
    staged w's column q (the narrowing of the operands changes nothing at the exact values, and the accumulator is zero). -/
theorem pay_apply (x0 : Vec Ideal S5000x256 .f32) (x1 : Vec Ideal S256x64 .f32) (p : Fin 5000) (q : Fin 64) :
    k0_pay1 (F := Ideal) x0 x1 (ix2 p q) = ∑ k : Fin 256, (x0 (ix2 p k) : EReal) * (x1 (ix2 k q) : EReal) := by
  unfold k0_pay1
  show FloatOps.matmul (F := Ideal) dot_S5000x256_S256x64_S5000x64_1_0_0_1_n_n none (truncf (F := Ideal) .bf16 x0 bitsLt_bf16_f32)
    (truncf (F := Ideal) .bf16 x1 bitsLt_bf16_f32) (constant (F := Ideal) S5000x64 .f32 0x00000000#32) (ix2 p q) = _
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact blk_lhs_0 _ _
    | ⟨1, _⟩ => exact (blk_lhs_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (blk_rhs_0 _ _).trans hk
    | ⟨1, _⟩ => exact blk_rhs_1 _ _)
  rw [el, er]
  rfl

/-! ## The whole product: the same for the specification's record -/

theorem arr_lhs_0 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x64_S100000x64_1_0_0_1_n_n.lhsBatch by decide), dif_pos (show (0 : Fin Cert.ReferenceIdeal.S100000x256.rank) ∈ Cert.ReferenceIdeal.dot_S100000x256_S256x64_S100000x64_1_0_0_1_n_n.lhsNonContracting by decide)]
  rfl
theorem arr_lhs_1 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 1).val = (q ⟨0, by decide⟩).val :=
  Cert.ReferenceIdeal.dot_S100000x256_S256x64_S100000x64_1_0_0_1_n_n.lhsIdx_val_of_single rfl i q
theorem arr_rhs_0 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 0).val = (q ⟨0, by decide⟩).val :=
  Cert.ReferenceIdeal.dot_S100000x256_S256x64_S100000x64_1_0_0_1_n_n.rhsIdx_val_of_single rfl i q
theorem arr_rhs_1 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 1).val = (i 1).val := by
  unfold DotDims.rhsIdx
  rw [dif_neg (show ¬(1 : Fin Cert.ReferenceIdeal.S256x64.rank) ∈ Cert.ReferenceIdeal.dot_S100000x256_S256x64_S100000x64_1_0_0_1_n_n.rhsBatch by decide), dif_pos (show (1 : Fin Cert.ReferenceIdeal.S256x64.rank) ∈ Cert.ReferenceIdeal.dot_S100000x256_S256x64_S100000x64_1_0_0_1_n_n.rhsNonContracting by decide)]
  rfl

/-- The layer at row r, column q: the sum over the inner axis of x's row r against w's column q. -/
theorem dense1_apply (x : Vec Ideal S100000x256 .f32) (w : Vec Ideal S256x64 .f32) (r : Fin 100000) (q : Fin 64) :
    Cert.ReferenceIdeal.Layers.dense1 (F := Ideal) x w (ix2 r q) = ∑ k : Fin 256, (x (ix2 r k) : EReal) * (w (ix2 k q) : EReal) := by
  unfold Cert.ReferenceIdeal.Layers.dense1
  simp only [Host.dotGeneral]
  rw [Ideal.dotGeneral_apply, ← Equiv.sum_comp (contrEquiv1 Cert.ReferenceIdeal.dot_S100000x256_S256x64_S100000x64_1_0_0_1_n_n 256 rfl rfl).symm]
  refine Finset.sum_congr rfl fun k _ => ?_
  have hk := contrEquiv1_symm_val Cert.ReferenceIdeal.dot_S100000x256_S256x64_S100000x64_1_0_0_1_n_n 256 rfl rfl k
  have el : Cert.ReferenceIdeal.dot_S100000x256_S256x64_S100000x64_1_0_0_1_n_n.lhsIdx (ix2 r q) ((contrEquiv1 Cert.ReferenceIdeal.dot_S100000x256_S256x64_S100000x64_1_0_0_1_n_n 256 rfl rfl).symm k) = ix2 r k := funext fun a => Fin.ext (by
    match a with
    | ⟨0, _⟩ => exact arr_lhs_0 _ _
    | ⟨1, _⟩ => exact (arr_lhs_1 _ _).trans hk)
  have er : Cert.ReferenceIdeal.dot_S100000x256_S256x64_S100000x64_1_0_0_1_n_n.rhsIdx (ix2 r q) ((contrEquiv1 Cert.ReferenceIdeal.dot_S100000x256_S256x64_S100000x64_1_0_0_1_n_n 256 rfl rfl).symm k) = ix2 k q := funext fun a => Fin.ext (by
    match a with
    | ⟨0, _⟩ => exact (arr_rhs_0 _ _).trans hk
    | ⟨1, _⟩ => exact arr_rhs_1 _ _)
  rw [el, er]

/-! ## From the blocks to the array -/

/-- The printed index maps over the grid: windows 0 and 2 sit at block row t, column block 0; the whole of w at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is the block of the whole product of the region's two input arrays on rows 5000·t …. -/
theorem flushed (c : Dev nD) (t : Fin cfg0.N) :
    (dat0 V c).flushed 2 t = ((cfg0.win 2).blk t).view.read (Elt Ideal) (Cert.ReferenceIdeal.Layers.dense1 (F := Ideal) (V c main_arg0) (V c main_arg4)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  have hp : p.val < 5000 := p.isLt
  have hq : q.val < 64 := q.isLt
  have ht : t.val < 20 := Nat.lt_of_lt_of_eq t.isLt N_0
  show k0_pay1 (iblk0 V c 0 t) (iblk0 V c 1 t) (ix2 p q)
    = Cert.ReferenceIdeal.Layers.dense1 (F := Ideal) (V c main_arg0) (V c main_arg4) (((cfg0.win 2).blk t).view.emb (ix2 p q))
  have hemb : ((cfg0.win 2).blk t).view.emb (ix2 p q) = ix2 (⟨5000 * t.val + p.val, by omega⟩ : Fin 100000) q := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  rw [hemb, dense1_apply, pay_apply]
  refine Finset.sum_congr rfl fun k _ => ?_
  have hk : k.val < 256 := k.isLt
  have h0 : iblk0 V c 0 t (ix2 p k) = V c main_arg0 (ix2 (⟨5000 * t.val + p.val, by omega⟩ : Fin 100000) k) := by
    unfold iblk0
    rw [View.read_apply]
    show V c main_arg0 _ = V c main_arg0 _
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 256 + 1 * k.val = k.val; omega
  have h1 : iblk0 V c 1 t (ix2 k q) = V c main_arg4 (ix2 k q) := by
    unfold iblk0
    rw [View.read_apply]
    show V c main_arg4 _ = V c main_arg4 _
    refine congrArg (V c main_arg4) (funext fun a => Fin.ext ?_)
    match a with
    | ⟨0, _⟩ => show win0_1.index t (0 : Fin 2) * 256 + 1 * k.val = k.val; omega
    | ⟨1, _⟩ => show win0_1.index t (1 : Fin 2) * 64 + 1 * q.val = q.val; omega
  rw [h0, h1]

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Row r lies in the block of point r / 5000, which writes back. -/
theorem cover (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 20 := N_0
  refine ⟨⟨(i 0).val / 5000, by rw [hN]; omega⟩, flush0_2 _, ?_⟩
  rw [mem_blk]
  obtain ⟨-, -, -, -, e20, e21⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e21]; omega

/-- The region's output array after its run. -/
theorem final (c : Dev nD) : (dat0 V c).arrAt 2 cfg0.N = Cert.ReferenceIdeal.Layers.dense1 (F := Ideal) (V c main_arg0) (V c main_arg4) :=
  (dat0 V c).arrAt_eq_of_cover 2 _ (fun t _ => flushed V c t) cover

end Cert.KernelIdeal.Dense0

end
-- ==== Proof.Dense2.lean ====
/-
  The second matrix product,  out = x · w  with x of 100000 rows and 64 columns and w of 64 rows and 64 columns. Its grid
  has 20 points; point t stages rows 5000·t … 5000·t + 4999 of x (all 64 columns) and the whole of w, and writes back the
  product of the two staged blocks, accumulated into zeros. Entry (p, q) of that block product is  Σ_k x(5000·t + p, k) · w(k, q),
  which is entry (5000·t + p, q) of the whole product: the inner axis is never split, so each output row needs only its own
  row of x. Hence point t writes back the block of  dense2 x w  on its rows; the 20 blocks tile the 100000 rows, so the array
  ends holding that product.
-/
import proofs.«150763_j2199023255969_1_alg».proof.Proof.Gen.KernelIdeal.Frame
import proofs.«150763_j2199023255969_1_alg».proof.Proof.Layers
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product: which entries of its operands an output entry and a summation index meet -/

/-- The left operand's row is the output's row; -/
theorem blk_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column is the summation index; -/
theorem blk_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's row is the summation index; -/
theorem blk_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and its column is the output's column. -/
theorem blk_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's value at row p, column q of the block: the sum over the inner axis of the staged x block's row p against the
    staged w's column q (the narrowing of the operands changes nothing at the exact values, and the accumulator is zero). -/
theorem pay_apply (x0 : Vec Ideal S5000x64 .f32) (x1 : Vec Ideal S64x64 .f32) (p : Fin 5000) (q : Fin 64) :
    k2_pay1 (F := Ideal) x0 x1 (ix2 p q) = ∑ k : Fin 64, (x0 (ix2 p k) : EReal) * (x1 (ix2 k q) : EReal) := by
  unfold k2_pay1
  simp only [shapeCast_self]
  show FloatOps.matmul (F := Ideal) dot_S5000x64_S64x64_S5000x64_1_0_0_1_n_n none (truncf (F := Ideal) .bf16 x0 bitsLt_bf16_f32)
    (truncf (F := Ideal) .bf16 x1 bitsLt_bf16_f32) (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact blk_lhs_0 _ _
    | ⟨1, _⟩ => exact (blk_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (blk_rhs_0 _ _).trans hk
    | ⟨1, _⟩ => exact blk_rhs_1 _ _)
  rw [el, er]
  rfl

/-! ## The whole product: the same for the specification's record -/

theorem arr_lhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem arr_lhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem arr_rhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem arr_rhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The layer at row r, column q: the sum over the inner axis of x's row r against w's column q. -/
theorem dense2_apply (x : Vec Ideal S100000x64 .f32) (w : Vec Ideal S64x64 .f32) (r : Fin 100000) (q : Fin 64) :
    Cert.ReferenceIdeal.Layers.dense2 (F := Ideal) x w (ix2 r q) = ∑ k : Fin 64, (x (ix2 r k) : EReal) * (w (ix2 k q) : EReal) := by
  unfold Cert.ReferenceIdeal.Layers.dense2
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact arr_lhs_0 _ _
    | ⟨1, _⟩ => exact (arr_lhs_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (arr_rhs_0 _ _).trans hk
    | ⟨1, _⟩ => exact arr_rhs_1 _ _)
  rw [el, er]

/-! ## From the blocks to the array -/

/-- The printed index maps over the grid: windows 0 and 2 sit at block row t, column block 0; the whole of w at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is the block of the whole product of the region's two input arrays on rows 5000·t …. -/
theorem flushed (c : Dev nD) (t : Fin cfg2.N) :
    (dat2 V c).flushed 2 t = ((cfg2.win 2).blk t).view.read (Elt Ideal) (Cert.ReferenceIdeal.Layers.dense2 (F := Ideal) (V c main_v15) (V c main_arg6)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  have hp : p.val < 5000 := p.isLt
  have hq : q.val < 64 := q.isLt
  have ht : t.val < 20 := Nat.lt_of_lt_of_eq t.isLt N_2
  show k2_pay1 (iblk2 V c 0 t) (iblk2 V c 1 t) (ix2 p q)
    = Cert.ReferenceIdeal.Layers.dense2 (F := Ideal) (V c main_v15) (V c main_arg6) (((cfg2.win 2).blk t).view.emb (ix2 p q))
  have hemb : ((cfg2.win 2).blk t).view.emb (ix2 p q) = ix2 (⟨5000 * t.val + p.val, by omega⟩ : Fin 100000) q := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * q.val = q.val; omega
  rw [hemb, dense2_apply, pay_apply]
  refine Finset.sum_congr rfl fun k _ => ?_
  have hk : k.val < 64 := k.isLt
  have h0 : iblk2 V c 0 t (ix2 p k) = V c main_v15 (ix2 (⟨5000 * t.val + p.val, by omega⟩ : Fin 100000) k) := by
    unfold iblk2
    rw [View.read_apply]
    show V c main_v15 _ = V c main_v15 _
    refine congrArg (V c main_v15) (funext fun a => Fin.ext ?_)
    match a with
    | ⟨0, _⟩ => show win2_0.index t (0 : Fin 2) * 5000 + 1 * p.val = 5000 * t.val + p.val; omega
    | ⟨1, _⟩ => show win2_0.index t (1 : Fin 2) * 64 + 1 * k.val = k.val; omega
  have h1 : iblk2 V c 1 t (ix2 k q) = V c main_arg6 (ix2 k q) := by
    unfold iblk2
    rw [View.read_apply]
    show V c main_arg6 _ = V c main_arg6 _
    refine congrArg (V c main_arg6) (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  rw [h0, h1]

/-- An index of the array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v16).slice (win2_2.rect t)).set ↔ _
  rw [View.set_slice_whole, Rect.mem_set_unit]
  exact Iff.rfl

/-- Row r lies in the block of point r / 5000, which writes back. -/
theorem cover (i : S100000x64.Idx) : ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 20 := N_2
  refine ⟨⟨(i 0).val / 5000, by rw [hN]; omega⟩, flush2_2 _, ?_⟩
  rw [mem_blk]
  obtain ⟨-, -, -, -, e20, e21⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e21]; omega

/-- The region's output array after its run. -/
theorem final (c : Dev nD) : (dat2 V c).arrAt 2 cfg2.N = Cert.ReferenceIdeal.Layers.dense2 (F := Ideal) (V c main_v15) (V c main_arg6) :=
  (dat2 V c).arrAt_eq_of_cover 2 _ (fun t _ => flushed V c t) cover

end Cert.KernelIdeal.Dense2

end
-- ==== Proof.Dense4.lean ====
/-
  The third matrix product,  out = x · w  with x of 100000 rows and 64 columns and w of 64 rows and 16 columns. Its grid
  has 20 points; point t stages rows 5000·t … 5000·t + 4999 of x (all 64 columns) and the whole of w, and writes back the
  product of the two staged blocks, accumulated into zeros. Entry (p, q) of that block product is  Σ_k x(5000·t + p, k) · w(k, q),
  which is entry (5000·t + p, q) of the whole product: the inner axis is never split, so each output row needs only its own
  row of x. Hence point t writes back the block of  dense3 x w  on its rows; the 20 blocks tile the 100000 rows, so the array
  ends holding that product.
-/
import proofs.«150763_j2199023255969_1_alg».proof.Proof.Gen.KernelIdeal.Frame
import proofs.«150763_j2199023255969_1_alg».proof.Proof.Layers
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Dense4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product: which entries of its operands an output entry and a summation index meet -/

/-- The left operand's row is the output's row; -/
theorem blk_lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
/-- its column is the summation index; -/
theorem blk_lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
/-- the right operand's row is the summation index; -/
theorem blk_rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
/-- and its column is the output's column. -/
theorem blk_rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The body's value at row p, column q of the block: the sum over the inner axis of the staged x block's row p against the
    staged w's column q (the narrowing of the operands changes nothing at the exact values, and the accumulator is zero). -/
theorem pay_apply (x0 : Vec Ideal S5000x64 .f32) (x1 : Vec Ideal S64x16 .f32) (p : Fin 5000) (q : Fin 16) :
    k4_pay1 (F := Ideal) x0 x1 (ix2 p q) = ∑ k : Fin 64, (x0 (ix2 p k) : EReal) * (x1 (ix2 k q) : EReal) := by
  unfold k4_pay1
  simp only [shapeCast_self]
  show FloatOps.matmul (F := Ideal) dot_S5000x64_S64x16_S5000x16_1_0_0_1_n_n none (truncf (F := Ideal) .bf16 x0 bitsLt_bf16_f32)
    (truncf (F := Ideal) .bf16 x1 bitsLt_bf16_f32) (constant (F := Ideal) S5000x16 .f32 0x00000000#32) (ix2 p q) = _
  rw [Ideal.matmul_constant_zero_apply, ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p q) ((contrEquiv1 dot_S5000x64_S64x16_S5000x16_1_0_0_1_n_n 64 rfl rfl).symm k) = ix2 p k := funext fun a => Fin.ext (by
    match a with
    | ⟨0, _⟩ => exact blk_lhs_0 _ _
    | ⟨1, _⟩ => exact (blk_lhs_1 _ _).trans hk)
  have er : dot_S5000x64_S64x16_S5000x16_1_0_0_1_n_n.rhsIdx (ix2 p q) ((contrEquiv1 dot_S5000x64_S64x16_S5000x16_1_0_0_1_n_n 64 rfl rfl).symm k) = ix2 k q := funext fun a => Fin.ext (by
    match a with
    | ⟨0, _⟩ => exact (blk_rhs_0 _ _).trans hk
    | ⟨1, _⟩ => exact blk_rhs_1 _ _)
  rw [el, er]
  rfl

/-! ## The whole product: the same for the specification's record -/

theorem arr_lhs_0 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x16_S100000x16_1_0_0_1_n_n.lhsBatch by decide), dif_pos (show (0 : Fin Cert.ReferenceIdeal.S100000x64.rank) ∈ Cert.ReferenceIdeal.dot_S100000x64_S64x16_S100000x16_1_0_0_1_n_n.lhsNonContracting by decide)]
  rfl
theorem arr_lhs_1 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 1).val = (q ⟨0, by decide⟩).val :=
  Cert.ReferenceIdeal.dot_S100000x64_S64x16_S100000x16_1_0_0_1_n_n.lhsIdx_val_of_single rfl i q
theorem arr_rhs_0 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 0).val = (q ⟨0, by decide⟩).val :=
  Cert.ReferenceIdeal.dot_S100000x64_S64x16_S100000x16_1_0_0_1_n_n.rhsIdx_val_of_single rfl i q
theorem arr_rhs_1 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 1).val = (i 1).val := by
  unfold DotDims.rhsIdx
  rw [dif_neg (show ¬(1 : Fin Cert.ReferenceIdeal.S64x16.rank) ∈ Cert.ReferenceIdeal.dot_S100000x64_S64x16_S100000x16_1_0_0_1_n_n.rhsBatch by decide), dif_pos (show (1 : Fin Cert.ReferenceIdeal.S64x16.rank) ∈ Cert.ReferenceIdeal.dot_S100000x64_S64x16_S100000x16_1_0_0_1_n_n.rhsNonContracting by decide)]
  rfl

/-- The layer at row r, column q: the sum over the inner axis of x's row r against w's column q. -/
theorem dense3_apply (x : Vec Ideal S100000x64 .f32) (w : Vec Ideal S64x16 .f32) (r : Fin 100000) (q : Fin 16) :
    Cert.ReferenceIdeal.Layers.dense3 (F := Ideal) x w (ix2 r q) = ∑ k : Fin 64, (x (ix2 r k) : EReal) * (w (ix2 k q) : EReal) := by
  unfold Cert.ReferenceIdeal.Layers.dense3
  simp only [Host.dotGeneral]
  rw [Ideal.dotGeneral_apply, ← Equiv.sum_comp (contrEquiv1 Cert.ReferenceIdeal.dot_S100000x64_S64x16_S100000x16_1_0_0_1_n_n 64 rfl rfl).symm]
  refine Finset.sum_congr rfl fun k _ => ?_
  have hk := contrEquiv1_symm_val Cert.ReferenceIdeal.dot_S100000x64_S64x16_S100000x16_1_0_0_1_n_n 64 rfl rfl k
  have el : Cert.ReferenceIdeal.dot_S100000x64_S64x16_S100000x16_1_0_0_1_n_n.lhsIdx (ix2 r q) ((contrEquiv1 Cert.ReferenceIdeal.dot_S100000x64_S64x16_S100000x16_1_0_0_1_n_n 64 rfl rfl).symm k) = ix2 r k := funext fun a => Fin.ext (by
    match a with
    | ⟨0, _⟩ => exact arr_lhs_0 _ _
    | ⟨1, _⟩ => exact (arr_lhs_1 _ _).trans hk)
  have er : Cert.ReferenceIdeal.dot_S100000x64_S64x16_S100000x16_1_0_0_1_n_n.rhsIdx (ix2 r q) ((contrEquiv1 Cert.ReferenceIdeal.dot_S100000x64_S64x16_S100000x16_1_0_0_1_n_n 64 rfl rfl).symm k) = ix2 k q := funext fun a => Fin.ext (by
    match a with
    | ⟨0, _⟩ => exact (arr_rhs_0 _ _).trans hk
    | ⟨1, _⟩ => exact arr_rhs_1 _ _)
  rw [el, er]

/-! ## From the blocks to the array -/

/-- The printed index maps over the grid: windows 0 and 2 sit at block row t, column block 0; the whole of w at (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is the block of the whole product of the region's two input arrays on rows 5000·t …. -/
theorem flushed (c : Dev nD) (t : Fin cfg4.N) :
    (dat4 V c).flushed 2 t = ((cfg4.win 2).blk t).view.read (Elt Ideal) (Cert.ReferenceIdeal.Layers.dense3 (F := Ideal) (V c main_v31) (V c main_arg8)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x16) hz]
  obtain ⟨e00, e01, e10, e11, e20, e21⟩ := idx_facts t
  funext j
  obtain ⟨p, q, rfl⟩ : ∃ (p : Fin 5000) (q : Fin 16), j = ix2 p q := ⟨j 0, j 1, eq_ix2 j⟩
  have hp : p.val < 5000 := p.isLt
  have hq : q.val < 16 := q.isLt
  have ht : t.val < 20 := Nat.lt_of_lt_of_eq t.isLt N_4
  show k4_pay1 (iblk4 V c 0 t) (iblk4 V c 1 t) (ix2 p q)
    = Cert.ReferenceIdeal.Layers.dense3 (F := Ideal) (V c main_v31) (V c main_arg8) (((cfg4.win 2).blk t).view.emb (ix2 p q))
  have hemb : ((cfg4.win 2).blk t).view.emb (ix2 p q) = ix2 (⟨5000 * t.val + p.val, by omega⟩ : Fin 100000) q := by
    funext a; apply Fin.ext
    match a with
    | ⟨0, _⟩ => show win4_2.index t (0 : Fin 2) * 5000 + 1 * p.val = 5000 * t.val + p.val; omega
    | ⟨1, _⟩ => show win4_2.index t (1 : Fin 2) * 16 + 1 * q.val = q.val; omega
  rw [hemb, dense3_apply, pay_apply]
  refine Finset.sum_congr rfl fun k _ => ?_
  have hk : k.val < 64 := k.isLt
  have h0 : iblk4 V c 0 t (ix2 p k) = V c main_v31 (ix2 (⟨5000 * t.val + p.val, by omega⟩ : Fin 100000) k) := by
    unfold iblk4
    rw [View.read_apply]
    show V c main_v31 _ = V c main_v31 _
    refine congrArg (V c main_v31) (funext fun a => Fin.ext ?_)
    match a with
    | ⟨0, _⟩ => show win4_0.index t (0 : Fin 2) * 5000 + 1 * p.val = 5000 * t.val + p.val; omega
    | ⟨1, _⟩ => show win4_0.index t (1 : Fin 2) * 64 + 1 * k.val = k.val; omega
  have h1 : iblk4 V c 1 t (ix2 k q) = V c main_arg8 (ix2 k q) := by
    unfold iblk4
    rw [View.read_apply]
    show V c main_arg8 _ = V c main_arg8 _
    refine congrArg (V c main_arg8) (funext fun a => Fin.ext ?_)
    match a with
    | ⟨0, _⟩ => show win4_1.index t (0 : Fin 2) * 64 + 1 * k.val = k.val; omega
    | ⟨1, _⟩ => show win4_1.index t (1 : Fin 2) * 16 + 1 * q.val = q.val; omega
  rw [h0, h1]

/-- An index of the array is in point t's block iff each coordinate is in the block's range on its axis. -/
theorem mem_blk (t : Fin cfg4.N) (i : S100000x16.Idx) :
    i ∈ ((cfg4.win 2).blk t).view.set ↔ ∀ a : Fin 2, win4_2.index t a * S5000x16.size a ≤ (i a).val
      ∧ (i a).val < win4_2.index t a * S5000x16.size a + S5000x16.size a := by
  show i ∈ ((View.whole main_v32).slice (win4_2.rect t)).set ↔ _
  rw [View.set_slice_whole, Rect.mem_set_unit]
  exact Iff.rfl

/-- Row r lies in the block of point r / 5000, which writes back. -/
theorem cover (i : S100000x16.Idx) : ∃ t : Fin cfg4.N, (cfg4.win 2).flush t = true ∧ i ∈ ((cfg4.win 2).blk t).view.set := by
  have hi0 : (i 0).val < 100000 := idx2_lt0 i
  have hi1 : (i 1).val < 16 := idx2_lt1 i
  have hN : cfg4.N = 20 := N_4
  refine ⟨⟨(i 0).val / 5000, by rw [hN]; omega⟩, flush4_2 _, ?_⟩
  rw [mem_blk]
  obtain ⟨-, -, -, -, e20, e21⟩ := idx_facts ⟨(i 0).val / 5000, by rw [hN]; omega⟩
  intro a
  match a with
  | ⟨0, _⟩ =>
    show win4_2.index _ (0 : Fin 2) * 5000 ≤ (i 0).val ∧ (i 0).val < win4_2.index _ (0 : Fin 2) * 5000 + 5000
    rw [e20]; show (i 0).val / 5000 * 5000 ≤ (i 0).val ∧ (i 0).val < (i 0).val / 5000 * 5000 + 5000; omega
  | ⟨1, _⟩ =>
    show win4_2.index _ (1 : Fin 2) * 16 ≤ (i 1).val ∧ (i 1).val < win4_2.index _ (1 : Fin 2) * 16 + 16
    rw [e21]; omega

/-- The region's output array after its run. -/
theorem final (c : Dev nD) : (dat4 V c).arrAt 2 cfg4.N = Cert.ReferenceIdeal.Layers.dense3 (F := Ideal) (V c main_v31) (V c main_arg8) :=
  (dat4 V c).arrAt_eq_of_cover 2 _ (fun t _ => flushed V c t) cover

end Cert.KernelIdeal.Dense4

end
-- ==== Proof.LogSoftmax5.lean ====
/-
  The last region: bias and log-softmax, tiled over the rows. Its grid has 20 points; point t stages rows
  5000·t … 5000·t + 4999 of the aggregated logits (all 16 columns) and the bias as one row. With z = block + bias row,
  the body stores  (z − M) − log Σ_k exp (z(p, k) − M_p),  where M_p is the maximum of row p over its 16 lanes, taken
  from −∞. The specification computes, for the whole array, the same expression row by row: its row maximum is taken
  from −∞ and then once more against −∞, which changes nothing, and its row sum starts from 0, which changes nothing.
  So entry (r, q) of either side is one function, `lsm`, of the sixteen values  a(r, k) + bias(k);  row 5000·t + p of
  the array is row p of block t, and the 20 blocks tile the 100000 rows.
-/
import proofs.«150763_j2199023255969_1_alg».proof.Proof.Gen.KernelIdeal.Frame
import proofs.«150763_j2199023255969_1_alg».proof.Proof.Layers
import Idealize.ShloMosaic.Lib.Pipeline.Value
import Idealize.ShloMosaic.Lib.ValueIdx
import Idealize.ShloMosaic.Lib.KernelVsHost
import Idealize.ShloMosaic.Lib.ValueLayout
import Idealize.ShloMosaic.PureOps.Ideal.Laws

set_option maxRecDepth 16384

noncomputable section

namespace Cert.KernelIdeal.LogSoftmax5

open Cert.KernelIdeal Cert.KernelIdeal.Gen
open Idealize.ShloMosaic Idealize.ShloMosaic.TcCoe Idealize.SL.Sem Idealize.ShloMosaic.ValueIdx
open Idealize.ShloMosaic.Pipeline (Dat)
open Cert.ReferenceIdeal.Layers (logSoftmaxRow logSoftmax rowMax)

variable (V : (c : Dev nD) → (b : Ref sig .tc) → Buf (Elt Ideal) ((c : Thread nD τ).loc b))

/-! ## Layout: a column kept as a unit axis and laid back along the rows -/

section Layout
variable {α : Type}

/-- Reducing an [m, n] array along its second axis: the source index over row p with coordinate k inserted is (p, k). -/
theorem lift_row {m n : Nat} (h : (⟨2, ![m, n]⟩ : Shape).Reduces [1] ⟨1, ![m]⟩) (p : Fin m) (k : Fin n) :
    h.lift (ix1 p) k = ix2 p k := by
  funext c; apply Fin.ext
  match c with
  | ⟨0, _⟩ => rfl
  | ⟨1, _⟩ => rfl

/-- An [a] vector cast to a column [a, 1] reads, at (i, u), the vector at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The specification's spelling of the same: a column [a, 1] laid along axes (0, 1) of [a, b] reads, at (r, t), the
    column at (r, 0). -/
theorem broadcastInDim_a1_ab_apply {a b : ℕ} (hbc : (⟨2, ![a, 1]⟩ : Shape).BroadcastsInDim ⟨2, ![a, b]⟩ ![0, 1])
    (y : (⟨2, ![a, 1]⟩ : Shape).Idx → α) (r : Fin a) (t : Fin b) :
    broadcastInDim ⟨2, ![a, b]⟩ ![0, 1] hbc y (ix2 r t) = y (ix2 r (0 : Fin 1)) := by
  refine broadcastInDim_apply ![0, 1] hbc y (ix2 r t) (ix2 r (0 : Fin 1)) ?_
  intro ax
  match ax with
  | ⟨0, _⟩ =>
    show r.val = if a = 1 then 0 else r.val
    split
    · have := r.isLt; omega
    · rfl
  | ⟨1, _⟩ => rfl

/-- An [a] vector laid along axis 0 of a column [a, 1] reads, at (r, u), the vector at r. -/
theorem broadcastInDim_a_a1_apply {a : ℕ} (hbc : (⟨1, ![a]⟩ : Shape).BroadcastsInDim ⟨2, ![a, 1]⟩ ![0])
    (y : (⟨1, ![a]⟩ : Shape).Idx → α) (r : Fin a) (u : Fin 1) :
    broadcastInDim ⟨2, ![a, 1]⟩ ![0] hbc y (ix2 r u) = y (ix1 r) := by
  refine broadcastInDim_apply ![0] hbc y (ix2 r u) (ix1 r) ?_
  intro ax
  match ax with
  | ⟨0, _⟩ =>
    show r.val = if a = 1 then 0 else r.val
    split
    · have := r.isLt; omega
    · rfl

end Layout

/-! ## The row function -/

/-- The maximum of a row of sixteen values: the fold of max over the lanes, from the value of the word 0xFF800000 (−∞).
    It is carried as the fold; nothing below needs its value. -/
def rmax (z : Fin 16 → EReal) : EReal :=
  (Finset.univ : Finset (Fin 16)).fold max (FloatOps.ofBits (F := Ideal) .f32 0xFF800000#32 : EReal) z

/-- Log-softmax of one row of sixteen values, at lane q:  (z q − M) − log Σ_k exp (z k − M),  M the row's maximum. -/
def lsm (z : Fin 16 → EReal) (q : Fin 16) : EReal :=
  (z q - rmax z) - Ideal.log (∑ k : Fin 16, Ideal.exp (z k - rmax z))

/-- At the extended reals the exponential and the logarithm of a vector act lane by lane, and the specification's are the
    same two functions. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-! ## The body's side: entry (p, q) of the stored block -/

/-- A per-row value kept as a column and broadcast back along the row reads, anywhere in row p, the value of row p. -/
theorem keep_col {α : Type} (v : S5000.Idx → α) (p : Fin 5000) (k : Fin 16) :
    broadcastTo S5000x16 (shapeCast S5000x1 v shapeCasts_S5000_S5000x1) broadcasts_S5000x1_S5000x16 (ix2 p k) = v (ix1 p) := by
  rw [broadcastTo_a1_ab_apply, shapeCast_a_a1_apply]

/-- The lane maximum of row p of a block is `rmax` of that row. -/
theorem rowMaxK (src : FVec Ideal S5000x16 .f32) (hφ : FKind.Formats .f32)
    (hacc : (0xFF800000#32 : BitVec 32) = FKind.maximumf.neutral .f32 hφ) (p : Fin 5000) :
    multiReduction (F := Ideal) .maximumf [1] S5000 src 0xFF800000#32 reduces_S5000x16_S5000 hφ hacc (ix1 p)
      = rmax (fun k => (src (ix2 p k) : EReal)) := by
  refine (Ideal.multiReduction_maximumf_single src _ reduces_S5000x16_S5000 hφ hacc (ix1 p)).trans ?_
  unfold rmax
  exact Finset.fold_congr fun k _ => congrArg src (lift_row reduces_S5000x16_S5000 p k)

/-- The lane sum of row p of a block is the sum of that row's sixteen entries. -/
theorem rowSumK (src : FVec Ideal S5000x16 .f32) (hφ : FKind.Formats .f32)
    (hacc : (0x00000000#32 : BitVec 32) = FKind.add.neutral .f32 hφ) (p : Fin 5000) :
    multiReduction (F := Ideal) .add [1] S5000 src 0x00000000#32 reduces_S5000x16_S5000 hφ hacc (ix1 p)
      = ∑ k : Fin 16, (src (ix2 p k) : EReal) := by
  refine (Ideal.multiReduction_add_single src _ reduces_S5000x16_S5000 hφ hacc (ix1 p)).trans ?_
  exact Finset.sum_congr rfl fun k _ => congrArg src (lift_row reduces_S5000x16_S5000 p k)

/-- The body's expression of a block z — subtract the row maxima, exponentiate, sum along the rows, take logarithms,
    subtract again — is, at (p, q), `lsm` of row p of z at lane q. -/
theorem core_apply (z : FVec Ideal S5000x16 .f32) (hφ : FKind.Formats .f32)
    (hmax : (0xFF800000#32 : BitVec 32) = FKind.maximumf.neutral .f32 hφ)
    (hadd : (0x00000000#32 : BitVec 32) = FKind.add.neutral .f32 hφ) (p : Fin 5000) (q : Fin 16) :
    subf (subf z (broadcastTo S5000x16 (shapeCast S5000x1 (multiReduction .maximumf [1] S5000 z 0xFF800000#32 reduces_S5000x16_S5000 hφ hmax) shapeCasts_S5000_S5000x1) broadcasts_S5000x1_S5000x16))
      (broadcastTo S5000x16 (log (shapeCast S5000x1 (multiReduction .add [1] S5000
          (exp (subf z (broadcastTo S5000x16 (shapeCast S5000x1 (multiReduction .maximumf [1] S5000 z 0xFF800000#32 reduces_S5000x16_S5000 hφ hmax) shapeCasts_S5000_S5000x1) broadcasts_S5000x1_S5000x16)))
          0x00000000#32 reduces_S5000x16_S5000 hφ hadd) shapeCasts_S5000_S5000x1)) broadcasts_S5000x1_S5000x16) (ix2 p q)
    = lsm (fun k => (z (ix2 p k) : EReal)) q := by
  simp only [subf_apply]
  rw [keep_col, broadcastTo_a1_ab_apply, log_apply, shapeCast_a_a1_apply, rowMaxK, rowSumK]
  simp only [exp_apply, subf_apply, keep_col]
  rw [rowMaxK]
  rfl

/-- The body's value at row p, column q of the block: `lsm` of the block's row p plus the bias row. -/
theorem pay_apply (x0 : Vec Ideal S5000x16 .f32) (x1 : Vec Ideal S1x16 .f32) (p : Fin 5000) (q : Fin 16) :
    k5_pay1 (F := Ideal) x0 x1 (ix2 p q)
      = lsm (fun k => (x0 (ix2 p k) : EReal) + x1 (ix2 (0 : Fin 1) k)) q := by
  unfold k5_pay1
  simp only [shapeCast_self]
  refine (core_apply _ _ _ _ p q).trans ?_
  refine congrArg (fun z => lsm z q) (funext fun k => ?_)
  show ((x0 (ix2 p k) : EReal) + broadcastTo S5000x16 (x1 : S1x16.Idx → EReal) broadcasts_S1x16_S5000x16 (ix2 p k)) = _
  rw [broadcastTo_1b_ab_apply]

/-! ## The specification's side: entry (r, q) of the whole array -/

theorem reduces_rows : (⟨2, ![100000, 16]⟩ : Shape).Reduces [1] ⟨1, ![100000]⟩ := by decide

/-- The specification's row maximum, laid back along the row: the fold from −∞ is at least −∞, so the second maximum
    against −∞ returns it, and it is `rmax` of row r. -/
theorem rowMax_apply (z : FVec Ideal S100000x16 .f32) (r : Fin 100000) (k : Fin 16) :
    rowMax (F := Ideal) z (ix2 r k) = rmax (fun k => (z (ix2 r k) : EReal)) := by
  unfold rowMax
  rw [broadcastInDim_a1_ab_apply, broadcastInDim_a_a1_apply, maximumf_apply]
  refine (congrArg (max _) (Host.reduce_eq_fold_single (FloatOps.maximumf (F := Ideal) (φ := .f32)) z _
    Cert.ReferenceIdeal.Gen.reducesTo_S100000x16_S100000_d1 reduces_rows Cert.ReferenceIdeal.Gen.h_S_ (ix1 r))).trans ?_
  show max (FloatOps.ofBits (F := Ideal) .f32 0xFF800000#32 : EReal)
      ((Finset.univ : Finset (Fin 16)).fold max (FloatOps.ofBits (F := Ideal) .f32 0xFF800000#32 : EReal) (fun k => z (reduces_rows.lift (ix1 r) k))) = _
  refine (max_eq_right ((Finset.le_fold_max _).2 (Or.inl le_rfl))).trans ?_
  unfold rmax
  exact Finset.fold_congr fun k _ => congrArg z (lift_row reduces_rows r k)

/-- The specification's row sum from the constant 0: 0 + Σ is Σ, over the sixteen entries of row r. -/
theorem rowSumH (x : FVec Ideal S100000x16 .f32) (r : Fin 100000) :
    Host.reduceAdd (F := Ideal) x (constant Cert.ReferenceIdeal.S_ .f32 0x00000000#32)
        Cert.ReferenceIdeal.Gen.reducesTo_S100000x16_S100000_d1 Cert.ReferenceIdeal.Gen.h_S_ (ix1 r)
      = ∑ k : Fin 16, (x (ix2 r k) : EReal) := by
  refine (Ideal.hostReduceAdd_single Cert.ReferenceIdeal.Gen.reducesTo_S100000x16_S100000_d1 reduces_rows x _ (ix1 r)).trans ?_
  show Ideal.ofBits .f32 0x00000000#32 + _ = _
  rw [Ideal.ofBits_zero_f32, zero_add]
  exact Finset.sum_congr rfl fun k _ => congrArg x (lift_row reduces_rows r k)

/-- Log-softmax of the whole array at (r, q): `lsm` of row r at lane q. -/
theorem logSoftmax_apply (z : FVec Ideal S100000x16 .f32) (r : Fin 100000) (q : Fin 16) :
    logSoftmax (F := Ideal) z (ix2 r q) = lsm (fun k => (z (ix2 r k) : EReal)) q := by
  unfold logSoftmax
  simp only [subf_apply]
  rw [broadcastInDim_a1_ab_apply, hostLog_apply, broadcastInDim_a_a1_apply, rowSumH, rowMax_apply]
  simp only [hostExp_apply, subf_apply, rowMax_apply]
  rfl

/-- The layer at row r, column q: `lsm` of row r of the array plus the bias row. -/
theorem logSoftmaxRow_apply (a : Vec Ideal S100000x16 .f32) (row : Vec Ideal S1x16 .f32) (r : Fin 100000) (q : Fin 16) :
    logSoftmaxRow (F := Ideal) a row (ix2 r q)
      = lsm (fun k => (a (ix2 r k) : EReal) + row (ix2 (0 : Fin 1) k)) q := by
  unfold logSoftmaxRow
  refine (logSoftmax_apply _ r q).trans ?_
  refine congrArg (fun z => lsm z q) (funext fun k => ?_)
  show ((a (ix2 r k) : EReal) + broadcastInDim (⟨2, ![100000, 16]⟩ : Shape) ![0, 1] Cert.ReferenceIdeal.Gen.bcast_S1x16_S100000x16_0_1 (row : (⟨2, ![1, 16]⟩ : Shape).Idx → EReal) (ix2 r k)) = _
  rw [broadcastInDim_oneRow_apply]

/-! ## The region: what each grid point writes back, and the array after the last one -/

theorem hz : (![0, 0] : Fin 2 → Nat) = fun _ => 0 := funext fun a => by fin_cases a <;> rfl

/-- The printed index maps over the grid: windows 0 and 2 sit at block row t, column block 0; the bias row at (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is the block of `logSoftmaxRow` of the region's two input arrays on rows 5000·t …: entry
    (p, q) of the block is `lsm` of block row p plus the bias row, the array's entry (5000·t + p, q) is `lsm` of array row
    5000·t + p plus the bias row, and the input block's row p is that array row, column by column. -/
theorem flushed (c : Dev nD) (t : Fin cfg5.N) :
    (dat5 V c).flushed 2 t = ((cfg5.win 2).blk t).view.read (Elt Ideal) (logSoftmaxRow (F := Ideal) (V c main_v45) (V c main_v46)) := by
  show (cfg5.win 2).cut (grid5.coords t) ((dat5 V c).after 2 t) = _
  rw [after5_2]
  unfold out5_2
  rw [View.canon_unit_zero hz]
  simp only [View.ld_unit_zero (S := S5000x16) hz, View.ld_unit_zero (S := S1x16) hz]
  obtain ⟨e00, e01, e10, e11, e20, e21⟩ := idx_facts t
  funext j
  obtain ⟨p, q, rfl⟩ : ∃ (p : Fin 5000) (q : Fin 16), j = ix2 p q := ⟨j 0, j 1, eq_ix2 j⟩
  have hp : p.val < 5000 := p.isLt
  have hq : q.val < 16 := q.isLt
  have ht : t.val < 20 := Nat.lt_of_lt_of_eq t.isLt N_5
  show k5_pay1 (iblk5 V c 0 t) (iblk5 V c 1 t) (ix2 p q)
    = logSoftmaxRow (F := Ideal) (V c main_v45) (V c main_v46) (((cfg5.win 2).blk t).view.emb (ix2 p q))
  have hemb : ((cfg5.win 2).blk t).view.emb (ix2 p q) = ix2 (⟨5000 * t.val + p.val, by omega⟩ : Fin 100000) q := by
    funext a; apply Fin.ext
    match a with
    | ⟨0, _⟩ => show win5_2.index t (0 : Fin 2) * 5000 + 1 * p.val = 5000 * t.val + p.val; omega
    | ⟨1, _⟩ => show win5_2.index t (1 : Fin 2) * 16 + 1 * q.val = q.val; omega
  rw [hemb, logSoftmaxRow_apply, pay_apply]
  have h0 : ∀ k : Fin 16, iblk5 V c 0 t (ix2 p k) = V c main_v45 (ix2 (⟨5000 * t.val + p.val, by omega⟩ : Fin 100000) k) := by
    intro k
    have hk : k.val < 16 := k.isLt
    unfold iblk5
    rw [View.read_apply]
    show V c main_v45 _ = V c main_v45 _
    refine congrArg (V c main_v45) (funext fun a => Fin.ext ?_)
    match a with
    | ⟨0, _⟩ => show win5_0.index t (0 : Fin 2) * 5000 + 1 * p.val = 5000 * t.val + p.val; omega
    | ⟨1, _⟩ => show win5_0.index t (1 : Fin 2) * 16 + 1 * k.val = k.val; omega
  have h1 : ∀ k : Fin 16, iblk5 V c 1 t (ix2 (0 : Fin 1) k) = V c main_v46 (ix2 (0 : Fin 1) k) := by
    intro k
    have hk : k.val < 16 := k.isLt
    unfold iblk5
    rw [View.read_apply]
    show V c main_v46 _ = V c main_v46 _
    refine congrArg (V c main_v46) (funext fun a => Fin.ext ?_)
    match a with
    | ⟨0, _⟩ => show win5_1.index t (0 : Fin 2) * 1 + 1 * 0 = 0; omega
    | ⟨1, _⟩ => show win5_1.index t (1 : Fin 2) * 16 + 1 * k.val = k.val; omega
  simp only [h0, h1]

/-- An index of the array is in point t's block iff each coordinate is in the block's range on its axis. -/
theorem mem_blk (t : Fin cfg5.N) (i : S100000x16.Idx) :
    i ∈ ((cfg5.win 2).blk t).view.set ↔ ∀ a : Fin 2, win5_2.index t a * S5000x16.size a ≤ (i a).val
      ∧ (i a).val < win5_2.index t a * S5000x16.size a + S5000x16.size a := by
  show i ∈ ((View.whole main_v47).slice (win5_2.rect t)).set ↔ _
  rw [View.set_slice_whole, Rect.mem_set_unit]
  exact Iff.rfl

/-- Row r lies in the block of point r / 5000, which writes back. -/
theorem cover (i : S100000x16.Idx) : ∃ t : Fin cfg5.N, (cfg5.win 2).flush t = true ∧ i ∈ ((cfg5.win 2).blk t).view.set := by
  have hi0 : (i 0).val < 100000 := idx2_lt0 i
  have hi1 : (i 1).val < 16 := idx2_lt1 i
  have hN : cfg5.N = 20 := N_5
  refine ⟨⟨(i 0).val / 5000, by rw [hN]; omega⟩, flush5_2 _, ?_⟩
  rw [mem_blk]
  obtain ⟨-, -, -, -, e20, e21⟩ := idx_facts ⟨(i 0).val / 5000, by rw [hN]; omega⟩
  intro a
  match a with
  | ⟨0, _⟩ =>
    show win5_2.index _ (0 : Fin 2) * 5000 ≤ (i 0).val ∧ (i 0).val < win5_2.index _ (0 : Fin 2) * 5000 + 5000
    rw [e20]; show (i 0).val / 5000 * 5000 ≤ (i 0).val ∧ (i 0).val < (i 0).val / 5000 * 5000 + 5000; omega
  | ⟨1, _⟩ =>
    show win5_2.index _ (1 : Fin 2) * 16 ≤ (i 1).val ∧ (i 1).val < win5_2.index _ (1 : Fin 2) * 16 + 16
    rw [e21]; omega

/-- The region's output array after its run. -/
theorem final (c : Dev nD) : (dat5 V c).arrAt 2 cfg5.N = Cert.ReferenceIdeal.Layers.logSoftmaxRow (F := Ideal) (V c main_v45) (V c main_v46) :=
  (dat5 V c).arrAt_eq_of_cover 2 _ (fun t _ => flushed V c t) cover

end Cert.KernelIdeal.LogSoftmax5

end
-- ==== Proof.RefChain.lean ====
/-
  The reference line, read as its layers.

  The reference program is a straight line of 81 whole-array operations, each writing one buffer of its own and reading
  buffers written earlier or arguments. Running the line from any contents W is a fold: operation by operation, the
  written buffer takes the operation's value at the current contents and every other buffer stays.

  The line falls into nine stretches that follow the network: a dense product, the sparse product  S ↦ A · S  (sixteen
  operations: wrap the source indices, gather, scale by the edge weights, scatter-add into zeros), the bias with relu, and
  the same twice more, the last time 16 features wide and with log-softmax in place of relu. For each stretch two facts are
  proved at an ARBITRARY starting contents W, so that neither mentions what ran before it:

    * its last buffer ends at the stretch's layer, applied to W at the one earlier buffer the stretch reads and at the
      arguments it reads;
    * it writes only buffers of its own list, and no argument is in any list, so it leaves all ten arguments as they were.

  The fold over a concatenation is the fold over the second part started from the fold over the first. Walking the nine
  stretches in order with these two facts, the contents of the result buffer after the whole line is the nine layers
  composed at the arguments' launch contents, which is the network's definition; and each argument is still what it was.

  Operations that came from an outlined function carry their values through a change of type along an equation between a
  buffer's declared type and the value's type; going there and back is the identity, which removes every such pair.
-/
import proofs.«150763_j2199023255969_1_alg».proof.Proof.Layers
import proofs.«150763_j2199023255969_1_alg».proof.Proof.RefRun
import Idealize.ShloMosaic.Lib.StableHlo.Run
import Idealize.ShloMosaic.Lib.Pipeline.Frame

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Contents carried to a typed reference's buffer and read back are the contents. -/
theorem ofBuf_toBuf {Val : EltTy → Type} {T : BufTy} (x : TRef sig T) (v : T.Contents Val) : x.ofBuf (x.toBuf v) = v := by
  obtain ⟨r, rfl, _, _⟩ := x; rfl

/-- Operations 0 of the line: X · W₁. -/
abbrev s0 : List (HloOp τ sig (Elt F)) :=
  [ binary main_arg0 main_arg4 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) ]

/-- The buffers stretch 0 writes. -/
abbrev wr0 : List (Ref sig .tc) := [main_v0]

theorem res0 (W : Valuation τ sig (Elt F)) :
    after (s0 (F := F)) W (Proc.devRef .tc main_v0)
      = Layers.dense1 (F := F) (W (Proc.devRef .tc main_arg0)) (W (Proc.devRef .tc main_arg4)) := by
  unfold Layers.dense1
  show after s0 _ (Proc.devRef .tc main_v0) = _
  after_results

theorem writes0 : (s0 (F := F)).Forall fun op => op.writes ⊆ (wr0.map (Proc.devRef (τ := τ) .tc)).toFinset := by
  simp only [s0, List.Forall, nullary_writes, unary_writes, binary_writes, ternary_writes, Finset.singleton_subset_iff, List.mem_toFinset]
  repeat' apply And.intro
  all_goals exact List.mem_map_of_mem (by decide)

/-- Operations 1–16 of the line: A · (X · W₁). -/
abbrev s1 : List (HloOp τ sig (Elt F)) :=
  [ nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stretch 1 writes. -/
abbrev wr1 : List (Ref sig .tc) := [main_c, main_v1, main_v2, main_c_0, main_v3, main_v4, main_v5, main_v6, main_v7, main_v8, main_v9, main_v10, main_cst, main_v11, main_v12, main_v13]

set_option maxHeartbeats 1000000 in
theorem res1 (W : Valuation τ sig (Elt F)) :
    after (s1 (F := F)) W (Proc.devRef .tc main_v13)
      = Layers.spmm64 (F := F) (W (Proc.devRef .tc main_arg1)) (W (Proc.devRef .tc main_arg2)) (W (Proc.devRef .tc main_arg3)) (W (Proc.devRef .tc main_v0)) := by
  unfold Layers.spmm64 Layers.wrapSrc
  show after s1 _ (Proc.devRef .tc main_v13) = _
  after_results_simp

theorem writes1 : (s1 (F := F)).Forall fun op => op.writes ⊆ (wr1.map (Proc.devRef (τ := τ) .tc)).toFinset := by
  simp only [s1, List.Forall, nullary_writes, unary_writes, binary_writes, ternary_writes, Finset.singleton_subset_iff, List.mem_toFinset]
  repeat' apply And.intro
  all_goals exact List.mem_map_of_mem (by decide)

/-- Operations 17–22 of the line: relu after the first bias. -/
abbrev s2 : List (HloOp τ sig (Elt F)) :=
  [ unary main_arg5 main_v14 (broadcastInDim S1x64 ![1] bcast_S64_S1x64_1 : (⟨S64, .f32⟩ : BufTy).Contents (Elt F) → (⟨S1x64, .f32⟩ : BufTy).Contents (Elt F)),
    unary main_v14 main_v15 (broadcastInDim S100000x64 ![0, 1] bcast_S1x64_S100000x64_0_1 : (⟨S1x64, .f32⟩ : BufTy).Contents (Elt F) → (⟨S100000x64, .f32⟩ : BufTy).Contents (Elt F)),
    binary main_v13 main_v15 main_v16 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v16) (TRef.of (T := ⟨S100000x64, .f32⟩) main_call0_v0) (TRef.of (T := ⟨S100000x64, .f32⟩) main_v17) maximumf ]

/-- The buffers stretch 2 writes. -/
abbrev wr2 : List (Ref sig .tc) := [main_v14, main_v15, main_v16, main_call0_cst, main_call0_v0, main_v17]

set_option maxHeartbeats 1000000 in
theorem res2 (W : Valuation τ sig (Elt F)) :
    after (s2 (F := F)) W (Proc.devRef .tc main_v17)
      = Layers.reluRow (F := F) (W (Proc.devRef .tc main_v13)) (Layers.row64 (W (Proc.devRef .tc main_arg5))) := by
  unfold Layers.reluRow Layers.row64
  show after s2 _ (Proc.devRef .tc main_v17) = _
  after_results_simp
  simp only [ofBuf_toBuf]
  simp only [TRef.ofBuf, TRef.toBuf, cast_eq]

theorem writes2 : (s2 (F := F)).Forall fun op => op.writes ⊆ (wr2.map (Proc.devRef (τ := τ) .tc)).toFinset := by
  simp only [s2, List.Forall, nullary_writes, unary_writes, binary_writes, ternary_writes, Finset.singleton_subset_iff, List.mem_toFinset]
  repeat' apply And.intro
  all_goals exact List.mem_map_of_mem (by decide)

/-- Operations 23 of the line: H₁ · W_h. -/
abbrev s3 : List (HloOp τ sig (Elt F)) :=
  [ binary main_v17 main_arg6 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The buffers stretch 3 writes. -/
abbrev wr3 : List (Ref sig .tc) := [main_v18]

theorem res3 (W : Valuation τ sig (Elt F)) :
    after (s3 (F := F)) W (Proc.devRef .tc main_v18)
      = Layers.dense2 (F := F) (W (Proc.devRef .tc main_v17)) (W (Proc.devRef .tc main_arg6)) := by
  unfold Layers.dense2
  show after s3 _ (Proc.devRef .tc main_v18) = _
  after_results

theorem writes3 : (s3 (F := F)).Forall fun op => op.writes ⊆ (wr3.map (Proc.devRef (τ := τ) .tc)).toFinset := by
  simp only [s3, List.Forall, nullary_writes, unary_writes, binary_writes, ternary_writes, Finset.singleton_subset_iff, List.mem_toFinset]
  repeat' apply And.intro
  all_goals exact List.mem_map_of_mem (by decide)

/-- Operations 24–39 of the line: A · (H₁ · W_h). -/
abbrev s4 : List (HloOp τ sig (Elt F)) :=
  [ nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v26 (broadcastInDim S1600000x1 ![0] bcast_S1600000_S1600000x1_0 : (⟨S1600000, .f32⟩ : BufTy).Contents (Elt F) → (⟨S1600000x1, .f32⟩ : BufTy).Contents (Elt F)),
    unary main_v26 main_v27 (broadcastInDim S1600000x64 ![0, 1] bcast_S1600000x1_S1600000x64_0_1 : (⟨S1600000x1, .f32⟩ : BufTy).Contents (Elt F) → (⟨S1600000x64, .f32⟩ : BufTy).Contents (Elt F)),
    binary main_v25 main_v27 main_v28 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v29 (broadcastInDim S100000x64 ![] bcast_S_S100000x64 : (⟨S_, .f32⟩ : BufTy).Contents (Elt F) → (⟨S100000x64, .f32⟩ : BufTy).Contents (Elt F)),
    unary main_arg2 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stretch 4 writes. -/
abbrev wr4 : List (Ref sig .tc) := [main_c_1, main_v19, main_v20, main_c_2, main_v21, main_v22, main_v23, main_v24, main_v25, main_v26, main_v27, main_v28, main_cst_3, main_v29, main_v30, main_v31]

set_option maxHeartbeats 1000000 in
theorem res4 (W : Valuation τ sig (Elt F)) :
    after (s4 (F := F)) W (Proc.devRef .tc main_v31)
      = Layers.spmm64 (F := F) (W (Proc.devRef .tc main_arg1)) (W (Proc.devRef .tc main_arg2)) (W (Proc.devRef .tc main_arg3)) (W (Proc.devRef .tc main_v18)) := by
  unfold Layers.spmm64 Layers.wrapSrc
  show after s4 _ (Proc.devRef .tc main_v31) = _
  after_results_simp

theorem writes4 : (s4 (F := F)).Forall fun op => op.writes ⊆ (wr4.map (Proc.devRef (τ := τ) .tc)).toFinset := by
  simp only [s4, List.Forall, nullary_writes, unary_writes, binary_writes, ternary_writes, Finset.singleton_subset_iff, List.mem_toFinset]
  repeat' apply And.intro
  all_goals exact List.mem_map_of_mem (by decide)

/-- Operations 40–45 of the line: relu after the second bias. -/
abbrev s5 : List (HloOp τ sig (Elt F)) :=
  [ unary main_arg7 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v34) (TRef.of (T := ⟨S100000x64, .f32⟩) main_call1_v0) (TRef.of (T := ⟨S100000x64, .f32⟩) main_v35) maximumf ]

/-- The buffers stretch 5 writes. -/
abbrev wr5 : List (Ref sig .tc) := [main_v32, main_v33, main_v34, main_call1_cst, main_call1_v0, main_v35]

set_option maxHeartbeats 1000000 in
theorem res5 (W : Valuation τ sig (Elt F)) :
    after (s5 (F := F)) W (Proc.devRef .tc main_v35)
      = Layers.reluRow (F := F) (W (Proc.devRef .tc main_v31)) (Layers.row64 (W (Proc.devRef .tc main_arg7))) := by
  unfold Layers.reluRow Layers.row64
  show after s5 _ (Proc.devRef .tc main_v35) = _
  after_results_simp
  simp only [ofBuf_toBuf]
  simp only [TRef.ofBuf, TRef.toBuf, cast_eq]

theorem writes5 : (s5 (F := F)).Forall fun op => op.writes ⊆ (wr5.map (Proc.devRef (τ := τ) .tc)).toFinset := by
  simp only [s5, List.Forall, nullary_writes, unary_writes, binary_writes, ternary_writes, Finset.singleton_subset_iff, List.mem_toFinset]
  repeat' apply And.intro
  all_goals exact List.mem_map_of_mem (by decide)

/-- Operations 46 of the line: H₂ · W₂. -/
abbrev s6 : List (HloOp τ sig (Elt F)) :=
  [ binary main_v35 main_arg8 main_v36 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- The buffers stretch 6 writes. -/
abbrev wr6 : List (Ref sig .tc) := [main_v36]

theorem res6 (W : Valuation τ sig (Elt F)) :
    after (s6 (F := F)) W (Proc.devRef .tc main_v36)
      = Layers.dense3 (F := F) (W (Proc.devRef .tc main_v35)) (W (Proc.devRef .tc main_arg8)) := by
  unfold Layers.dense3
  show after s6 _ (Proc.devRef .tc main_v36) = _
  after_results

theorem writes6 : (s6 (F := F)).Forall fun op => op.writes ⊆ (wr6.map (Proc.devRef (τ := τ) .tc)).toFinset := by
  simp only [s6, List.Forall, nullary_writes, unary_writes, binary_writes, ternary_writes, Finset.singleton_subset_iff, List.mem_toFinset]
  repeat' apply And.intro
  all_goals exact List.mem_map_of_mem (by decide)

/-- Operations 47–62 of the line: A · (H₂ · W₂). -/
abbrev s7 : List (HloOp τ sig (Elt F)) :=
  [ nullary main_c_4 (constantI S_ 32 0#32),
    unary main_c_4 main_v37 (broadcastInDim S1600000 ![] bcast_S_S1600000 : (⟨S_, .i32⟩ : BufTy).Contents (Elt F) → (⟨S1600000, .i32⟩ : BufTy).Contents (Elt F)),
    binary main_arg1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v39 (broadcastInDim S1600000 ![] bcast_S_S1600000 : (⟨S_, .i32⟩ : BufTy).Contents (Elt F) → (⟨S1600000, .i32⟩ : BufTy).Contents (Elt F)),
    binary main_arg1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_arg1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v36 main_v42 main_v43 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_arg3 main_v44 (broadcastInDim S1600000x1 ![0] bcast_S1600000_S1600000x1_0 : (⟨S1600000, .f32⟩ : BufTy).Contents (Elt F) → (⟨S1600000x1, .f32⟩ : BufTy).Contents (Elt F)),
    unary main_v44 main_v45 (broadcastInDim S1600000x16 ![0, 1] bcast_S1600000x1_S1600000x16_0_1 : (⟨S1600000x1, .f32⟩ : BufTy).Contents (Elt F) → (⟨S1600000x16, .f32⟩ : BufTy).Contents (Elt F)),
    binary main_v43 main_v45 main_v46 (mulf : (⟨S1600000x16, .f32⟩ : BufTy).Contents (Elt F) → (⟨S1600000x16, .f32⟩ : BufTy).Contents (Elt F) → (⟨S1600000x16, .f32⟩ : BufTy).Contents (Elt F)),
    nullary main_cst_6 (constant S_ .f32 0x00000000#32),
    unary main_cst_6 main_v47 (broadcastInDim S100000x16 ![] bcast_S_S100000x16 : (⟨S_, .f32⟩ : BufTy).Contents (Elt F) → (⟨S100000x16, .f32⟩ : BufTy).Contents (Elt F)),
    unary main_arg2 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)) ]

/-- The buffers stretch 7 writes. -/
abbrev wr7 : List (Ref sig .tc) := [main_c_4, main_v37, main_v38, main_c_5, main_v39, main_v40, main_v41, main_v42, main_v43, main_v44, main_v45, main_v46, main_cst_6, main_v47, main_v48, main_v49]

set_option maxHeartbeats 1000000 in
theorem res7 (W : Valuation τ sig (Elt F)) :
    after (s7 (F := F)) W (Proc.devRef .tc main_v49)
      = Layers.spmm16 (F := F) (W (Proc.devRef .tc main_arg1)) (W (Proc.devRef .tc main_arg2)) (W (Proc.devRef .tc main_arg3)) (W (Proc.devRef .tc main_v36)) := by
  unfold Layers.spmm16 Layers.wrapSrc
  show after s7 _ (Proc.devRef .tc main_v49) = _
  after_results_simp

theorem writes7 : (s7 (F := F)).Forall fun op => op.writes ⊆ (wr7.map (Proc.devRef (τ := τ) .tc)).toFinset := by
  simp only [s7, List.Forall, nullary_writes, unary_writes, binary_writes, ternary_writes, Finset.singleton_subset_iff, List.mem_toFinset]
  repeat' apply And.intro
  all_goals exact List.mem_map_of_mem (by decide)

/-- Operations 63–80 of the line: log-softmax after the third bias. -/
abbrev s8 : List (HloOp τ sig (Elt F)) :=
  [ unary main_arg9 main_v50 (broadcastInDim S1x16 ![1] bcast_S16_S1x16_1 : (⟨S16, .f32⟩ : BufTy).Contents (Elt F) → (⟨S1x16, .f32⟩ : BufTy).Contents (Elt F)),
    unary main_v50 main_v51 (broadcastInDim S100000x16 ![0, 1] bcast_S1x16_S100000x16_0_1 : (⟨S1x16, .f32⟩ : BufTy).Contents (Elt F) → (⟨S100000x16, .f32⟩ : BufTy).Contents (Elt F)),
    binary main_v49 main_v51 main_v52 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0xFF800000#32),
    TRef.binary (TRef.of (T := ⟨S100000x16, .f32⟩) main_v52) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v52) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v53) subf ]

/-- The buffers stretch 8 writes. -/
abbrev wr8 : List (Ref sig .tc) := [main_v50, main_v51, main_v52, main_call2_cst, main_call2_v0, main_call2_cst_0, main_call2_v1, main_call2_v2, main_call2_v3, main_call2_v4, main_call2_v5, main_call2_v6, main_call2_cst_1, main_call2_v7, main_call2_v8, main_call2_v9, main_call2_v10, main_v53]

set_option maxHeartbeats 1000000 in
theorem res8 (W : Valuation τ sig (Elt F)) :
    after (s8 (F := F)) W (Proc.devRef .tc main_v53)
      = Layers.logSoftmaxRow (F := F) (W (Proc.devRef .tc main_v49)) (Layers.row16 (W (Proc.devRef .tc main_arg9))) := by
  unfold Layers.logSoftmaxRow Layers.logSoftmax Layers.rowMax Layers.row16
  show after s8 _ (Proc.devRef .tc main_v53) = _
  after_results_simp
  simp only [ofBuf_toBuf]
  simp only [TRef.ofBuf, TRef.toBuf, cast_eq]

theorem writes8 : (s8 (F := F)).Forall fun op => op.writes ⊆ (wr8.map (Proc.devRef (τ := τ) .tc)).toFinset := by
  simp only [s8, List.Forall, nullary_writes, unary_writes, binary_writes, ternary_writes, Finset.singleton_subset_iff, List.mem_toFinset]
  repeat' apply And.intro
  all_goals exact List.mem_map_of_mem (by decide)

/-! ## What the stretches keep

No stretch writes an argument: each writes only the buffers listed beside it, and the ten arguments are in none of the lists. -/

/-- The ten argument buffers. -/
abbrev args : List (Ref sig .tc) :=
  [main_arg0, main_arg1, main_arg2, main_arg3, main_arg4, main_arg5, main_arg6, main_arg7, main_arg8, main_arg9]

/-- A line of operations leaves every argument as it found it, from any contents. -/
def Keeps (l : List (HloOp τ sig (Elt F))) : Prop :=
  ∀ (W : Valuation τ sig (Elt F)) (r : Ref sig .tc), r ∈ args → after l W (Proc.devRef .tc r) = W (Proc.devRef .tc r)

/-- A line all of whose writes lie in a list that holds no argument keeps the arguments. -/
theorem keeps_of_writes {wr : List (Ref sig .tc)} (l : List (HloOp τ sig (Elt F)))
    (hW : l.Forall fun op => op.writes ⊆ (wr.map (Proc.devRef (τ := τ) .tc)).toFinset) (hd : ∀ r ∈ args, r ∉ wr) : Keeps l :=
  fun W r hr => after_of_writes_sub l W hW (hd r hr)

/-- Two lines that keep the arguments keep them when run one after the other. -/
theorem Keeps.append {l₁ l₂ : List (HloOp τ sig (Elt F))} (h₁ : Keeps l₁) (h₂ : Keeps l₂) : Keeps (l₁ ++ l₂) :=
  fun W r hr => by rw [StableHlo.after_append, h₂ _ r hr, h₁ W r hr]

theorem keeps0 : Keeps (s0 (F := F)) := keeps_of_writes s0 writes0 (by decide)
theorem keeps1 : Keeps (s1 (F := F)) := keeps_of_writes s1 writes1 (by decide)
theorem keeps2 : Keeps (s2 (F := F)) := keeps_of_writes s2 writes2 (by decide)
theorem keeps3 : Keeps (s3 (F := F)) := keeps_of_writes s3 writes3 (by decide)
theorem keeps4 : Keeps (s4 (F := F)) := keeps_of_writes s4 writes4 (by decide)
theorem keeps5 : Keeps (s5 (F := F)) := keeps_of_writes s5 writes5 (by decide)
theorem keeps6 : Keeps (s6 (F := F)) := keeps_of_writes s6 writes6 (by decide)
theorem keeps7 : Keeps (s7 (F := F)) := keeps_of_writes s7 writes7 (by decide)
theorem keeps8 : Keeps (s8 (F := F)) := keeps_of_writes s8 writes8 (by decide)

/-! ## The line as its stretches in a row

`p k` is the line up to and with stretch `k`. Its value at stretch `k`'s result buffer is stretch `k`'s layer applied to the
value the shorter line `p (k-1)` leaves at the buffer stretch `k` reads, and to arguments, which the shorter line has kept. -/

abbrev p0 : List (HloOp τ sig (Elt F)) := s0
abbrev p1 : List (HloOp τ sig (Elt F)) := p0 ++ s1
abbrev p2 : List (HloOp τ sig (Elt F)) := p1 ++ s2
abbrev p3 : List (HloOp τ sig (Elt F)) := p2 ++ s3
abbrev p4 : List (HloOp τ sig (Elt F)) := p3 ++ s4
abbrev p5 : List (HloOp τ sig (Elt F)) := p4 ++ s5
abbrev p6 : List (HloOp τ sig (Elt F)) := p5 ++ s6
abbrev p7 : List (HloOp τ sig (Elt F)) := p6 ++ s7
abbrev p8 : List (HloOp τ sig (Elt F)) := p7 ++ s8

theorem ops_eq : ValueP.ops (F := F) = p8 := rfl

theorem keepsP0 : Keeps (p0 (F := F)) := keeps0
theorem keepsP1 : Keeps (p1 (F := F)) := keepsP0.append keeps1
theorem keepsP2 : Keeps (p2 (F := F)) := keepsP1.append keeps2
theorem keepsP3 : Keeps (p3 (F := F)) := keepsP2.append keeps3
theorem keepsP4 : Keeps (p4 (F := F)) := keepsP3.append keeps4
theorem keepsP5 : Keeps (p5 (F := F)) := keepsP4.append keeps5
theorem keepsP6 : Keeps (p6 (F := F)) := keepsP5.append keeps6
theorem keepsP7 : Keeps (p7 (F := F)) := keepsP6.append keeps7
theorem keepsP8 : Keeps (p8 (F := F)) := keepsP7.append keeps8

-- from here on a layer is a name: nothing below looks inside one
attribute [local irreducible] Layers.dense1 Layers.dense2 Layers.dense3 Layers.spmm64 Layers.spmm16 Layers.reluRow Layers.logSoftmaxRow Layers.row64 Layers.row16

theorem at0 (W : Valuation τ sig (Elt F)) :
    after (p0 (F := F)) W (Proc.devRef .tc main_v0) = (Layers.dense1 (F := F) (W (Proc.devRef .tc main_arg0)) (W (Proc.devRef .tc main_arg4))) := res0 W

theorem at1 (W : Valuation τ sig (Elt F)) :
    after (p1 (F := F)) W (Proc.devRef .tc main_v13)
      = (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) := by
  rw [show (p1 (F := F)) = p0 ++ s1 from rfl, StableHlo.after_append, res1, at0, keepsP0 W main_arg1 (by decide), keepsP0 W main_arg2 (by decide), keepsP0 W main_arg3 (by decide)]

theorem at2 (W : Valuation τ sig (Elt F)) :
    after (p2 (F := F)) W (Proc.devRef .tc main_v17)
      = (Layers.reluRow (F := F) (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) (Layers.row64 (W (Proc.devRef .tc main_arg5)))) := by
  rw [show (p2 (F := F)) = p1 ++ s2 from rfl, StableHlo.after_append, res2, at1, keepsP1 W main_arg5 (by decide)]

theorem at3 (W : Valuation τ sig (Elt F)) :
    after (p3 (F := F)) W (Proc.devRef .tc main_v18)
      = (Layers.dense2 (F := F) (Layers.reluRow (F := F) (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) (Layers.row64 (W (Proc.devRef .tc main_arg5)))) (W (Proc.devRef .tc main_arg6))) := by
  rw [show (p3 (F := F)) = p2 ++ s3 from rfl, StableHlo.after_append, res3, at2, keepsP2 W main_arg6 (by decide)]

theorem at4 (W : Valuation τ sig (Elt F)) :
    after (p4 (F := F)) W (Proc.devRef .tc main_v31)
      = (Layers.spmm64 (F := F) (W (Proc.devRef .tc main_arg1)) (W (Proc.devRef .tc main_arg2)) (W (Proc.devRef .tc main_arg3)) (Layers.dense2 (F := F) (Layers.reluRow (F := F) (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) (Layers.row64 (W (Proc.devRef .tc main_arg5)))) (W (Proc.devRef .tc main_arg6)))) := by
  rw [show (p4 (F := F)) = p3 ++ s4 from rfl, StableHlo.after_append, res4, at3, keepsP3 W main_arg1 (by decide), keepsP3 W main_arg2 (by decide), keepsP3 W main_arg3 (by decide)]

theorem at5 (W : Valuation τ sig (Elt F)) :
    after (p5 (F := F)) W (Proc.devRef .tc main_v35)
      = (Layers.reluRow (F := F) (Layers.spmm64 (F := F) (W (Proc.devRef .tc main_arg1)) (W (Proc.devRef .tc main_arg2)) (W (Proc.devRef .tc main_arg3)) (Layers.dense2 (F := F) (Layers.reluRow (F := F) (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) (Layers.row64 (W (Proc.devRef .tc main_arg5)))) (W (Proc.devRef .tc main_arg6)))) (Layers.row64 (W (Proc.devRef .tc main_arg7)))) := by
  rw [show (p5 (F := F)) = p4 ++ s5 from rfl, StableHlo.after_append, res5, at4, keepsP4 W main_arg7 (by decide)]

theorem at6 (W : Valuation τ sig (Elt F)) :
    after (p6 (F := F)) W (Proc.devRef .tc main_v36)
      = (Layers.dense3 (F := F) (Layers.reluRow (F := F) (Layers.spmm64 (F := F) (W (Proc.devRef .tc main_arg1)) (W (Proc.devRef .tc main_arg2)) (W (Proc.devRef .tc main_arg3)) (Layers.dense2 (F := F) (Layers.reluRow (F := F) (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) (Layers.row64 (W (Proc.devRef .tc main_arg5)))) (W (Proc.devRef .tc main_arg6)))) (Layers.row64 (W (Proc.devRef .tc main_arg7)))) (W (Proc.devRef .tc main_arg8))) := by
  rw [show (p6 (F := F)) = p5 ++ s6 from rfl, StableHlo.after_append, res6, at5, keepsP5 W main_arg8 (by decide)]

theorem at7 (W : Valuation τ sig (Elt F)) :
    after (p7 (F := F)) W (Proc.devRef .tc main_v49)
      = (Layers.spmm16 (F := F) (W (Proc.devRef .tc main_arg1)) (W (Proc.devRef .tc main_arg2)) (W (Proc.devRef .tc main_arg3)) (Layers.dense3 (F := F) (Layers.reluRow (F := F) (Layers.spmm64 (F := F) (W (Proc.devRef .tc main_arg1)) (W (Proc.devRef .tc main_arg2)) (W (Proc.devRef .tc main_arg3)) (Layers.dense2 (F := F) (Layers.reluRow (F := F) (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) (Layers.row64 (W (Proc.devRef .tc main_arg5)))) (W (Proc.devRef .tc main_arg6)))) (Layers.row64 (W (Proc.devRef .tc main_arg7)))) (W (Proc.devRef .tc main_arg8)))) := by
  rw [show (p7 (F := F)) = p6 ++ s7 from rfl, StableHlo.after_append, res7, at6, keepsP6 W main_arg1 (by decide), keepsP6 W main_arg2 (by decide), keepsP6 W main_arg3 (by decide)]

theorem at8 (W : Valuation τ sig (Elt F)) :
    after (p8 (F := F)) W (Proc.devRef .tc main_v53)
      = (Layers.logSoftmaxRow (F := F) (Layers.spmm16 (F := F) (W (Proc.devRef .tc main_arg1)) (W (Proc.devRef .tc main_arg2)) (W (Proc.devRef .tc main_arg3)) (Layers.dense3 (F := F) (Layers.reluRow (F := F) (Layers.spmm64 (F := F) (W (Proc.devRef .tc main_arg1)) (W (Proc.devRef .tc main_arg2)) (W (Proc.devRef .tc main_arg3)) (Layers.dense2 (F := F) (Layers.reluRow (F := F) (Layers.spmm64 (F := F) (W (Proc.devRef .tc main_arg1)) (W (Proc.devRef .tc main_arg2)) (W (Proc.devRef .tc main_arg3)) (Layers.dense1 (F := F) (W (Proc.devRef .tc main_arg0)) (W (Proc.devRef .tc main_arg4)))) (Layers.row64 (W (Proc.devRef .tc main_arg5)))) (W (Proc.devRef .tc main_arg6)))) (Layers.row64 (W (Proc.devRef .tc main_arg7)))) (W (Proc.devRef .tc main_arg8)))) (Layers.row16 (W (Proc.devRef .tc main_arg9)))) := by
  rw [show (p8 (F := F)) = p7 ++ s8 from rfl, StableHlo.after_append, res8, at7, keepsP7 W main_arg9 (by decide)]

/-! ## The statements -/

/-- The line's result buffer ends at the network of the ten arguments. -/
theorem result (W : Valuation τ sig (Elt F)) :
    after (ValueP.ops (F := F)) W (Proc.devRef .tc main_v53) = Layers.net (F := F)
      (W (Proc.devRef .tc main_arg0)) (W (Proc.devRef .tc main_arg1)) (W (Proc.devRef .tc main_arg2)) (W (Proc.devRef .tc main_arg3))
      (W (Proc.devRef .tc main_arg4)) (W (Proc.devRef .tc main_arg5)) (W (Proc.devRef .tc main_arg6)) (W (Proc.devRef .tc main_arg7))
      (W (Proc.devRef .tc main_arg8)) (W (Proc.devRef .tc main_arg9)) := by
  rw [ops_eq, at8]
  unfold Layers.net
  rfl

theorem kept0 (W : Valuation τ sig (Elt F)) :
    after (ValueP.ops (F := F)) W (Proc.devRef .tc main_arg0) = W (Proc.devRef .tc main_arg0) := by
  rw [ops_eq]; exact keepsP8 W main_arg0 (by decide)
theorem kept1 (W : Valuation τ sig (Elt F)) :
    after (ValueP.ops (F := F)) W (Proc.devRef .tc main_arg1) = W (Proc.devRef .tc main_arg1) := by
  rw [ops_eq]; exact keepsP8 W main_arg1 (by decide)
theorem kept2 (W : Valuation τ sig (Elt F)) :
    after (ValueP.ops (F := F)) W (Proc.devRef .tc main_arg2) = W (Proc.devRef .tc main_arg2) := by
  rw [ops_eq]; exact keepsP8 W main_arg2 (by decide)
theorem kept3 (W : Valuation τ sig (Elt F)) :
    after (ValueP.ops (F := F)) W (Proc.devRef .tc main_arg3) = W (Proc.devRef .tc main_arg3) := by
  rw [ops_eq]; exact keepsP8 W main_arg3 (by decide)
theorem kept4 (W : Valuation τ sig (Elt F)) :
    after (ValueP.ops (F := F)) W (Proc.devRef .tc main_arg4) = W (Proc.devRef .tc main_arg4) := by
  rw [ops_eq]; exact keepsP8 W main_arg4 (by decide)
theorem kept5 (W : Valuation τ sig (Elt F)) :
    after (ValueP.ops (F := F)) W (Proc.devRef .tc main_arg5) = W (Proc.devRef .tc main_arg5) := by
  rw [ops_eq]; exact keepsP8 W main_arg5 (by decide)
theorem kept6 (W : Valuation τ sig (Elt F)) :
    after (ValueP.ops (F := F)) W (Proc.devRef .tc main_arg6) = W (Proc.devRef .tc main_arg6) := by
  rw [ops_eq]; exact keepsP8 W main_arg6 (by decide)
theorem kept7 (W : Valuation τ sig (Elt F)) :
    after (ValueP.ops (F := F)) W (Proc.devRef .tc main_arg7) = W (Proc.devRef .tc main_arg7) := by
  rw [ops_eq]; exact keepsP8 W main_arg7 (by decide)
theorem kept8 (W : Valuation τ sig (Elt F)) :
    after (ValueP.ops (F := F)) W (Proc.devRef .tc main_arg8) = W (Proc.devRef .tc main_arg8) := by
  rw [ops_eq]; exact keepsP8 W main_arg8 (by decide)
theorem kept9 (W : Valuation τ sig (Elt F)) :
    after (ValueP.ops (F := F)) W (Proc.devRef .tc main_arg9) = W (Proc.devRef .tc main_arg9) := by
  rw [ops_eq]; exact keepsP8 W main_arg9 (by decide)

end Cert.ReferenceIdeal.Chain

end
-- ==== Proof.lean ====
/-
  The kernel is a three-layer graph convolution network: each layer multiplies the node features by a weight matrix, multiplies
  by the adjacency (given as a weighted edge list: gather the source rows, scale, scatter-add into the destination rows), adds a
  bias, and applies relu (twice) or a row-wise log-softmax (last). The three matrix products, the two bias-and-relu maps and
  the bias-and-log-softmax run as six kernel regions tiled over blocks of 5000 rows; the adjacency products run on the host,
  by the same operations as the reference's. On the extended reals a change of float format is the identity, a matrix product
  accumulated into zeros is the plain sum, and each region's blocks are the rows of one whole-array layer, so the kernel's
  result is the reference's network of the same arguments (Layers.lean). No law used needs the inputs finite.
-/
import proofs.«150763_j2199023255969_1_alg».proof.Defs
import proofs.«150763_j2199023255969_1_alg».proof.Proof.Gen.Kernel
import proofs.«150763_j2199023255969_1_alg».proof.Proof.Gen.Kernel.Skeleton
import proofs.«150763_j2199023255969_1_alg».proof.Proof.Gen.Kernel.Launch
import proofs.«150763_j2199023255969_1_alg».proof.Proof.Gen.Kernel.Points
import proofs.«150763_j2199023255969_1_alg».proof.Proof.Gen.Kernel.Frame
import proofs.«150763_j2199023255969_1_alg».proof.Proof.Gen.KernelIdeal
import proofs.«150763_j2199023255969_1_alg».proof.Proof.Gen.KernelIdeal.Skeleton
import proofs.«150763_j2199023255969_1_alg».proof.Proof.Gen.KernelIdeal.Launch
import proofs.«150763_j2199023255969_1_alg».proof.Proof.Gen.KernelIdeal.Points
import proofs.«150763_j2199023255969_1_alg».proof.Proof.Gen.KernelIdeal.Frame
import proofs.«150763_j2199023255969_1_alg».proof.Proof.Gen.ReferenceIdeal
import proofs.«150763_j2199023255969_1_alg».proof.Proof.Gen.Pre_finite_inputs
import proofs.«150763_j2199023255969_1_alg».proof.Proof.Layers
import proofs.«150763_j2199023255969_1_alg».proof.Proof.KRun
import proofs.«150763_j2199023255969_1_alg».proof.Proof.KChain
import proofs.«150763_j2199023255969_1_alg».proof.Proof.Relu1
import proofs.«150763_j2199023255969_1_alg».proof.Proof.Relu3
import proofs.«150763_j2199023255969_1_alg».proof.Proof.Dense0
import proofs.«150763_j2199023255969_1_alg».proof.Proof.Dense2
import proofs.«150763_j2199023255969_1_alg».proof.Proof.Dense4
import proofs.«150763_j2199023255969_1_alg».proof.Proof.LogSoftmax5
import proofs.«150763_j2199023255969_1_alg».proof.Proof.RefRun
import proofs.«150763_j2199023255969_1_alg».proof.Proof.RefChain
import Idealize.ShloMosaic.Adequacy
import Idealize.ShloMosaic.Init

noncomputable section

open Idealize.ShloMosaic Idealize.ShloMosaic.TcCoe Idealize.SL.Sem

namespace Cert.ReferenceIdeal.RefValue

open Cert.ReferenceIdeal Cert.ReferenceIdeal.Gen Idealize.ShloMosaic.StableHlo

/-- The reference's run, read: every weakly fair execution terminates with the result array at the network of the
    argument arrays as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = Layers.net (F := Ideal)
        (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v53).trans (Cert.ReferenceIdeal.Chain.result (F := Ideal) (launchContents m c)),
     (h c main_arg0).trans (Cert.ReferenceIdeal.Chain.kept0 (F := Ideal) (launchContents m c)),
     (h c main_arg1).trans (Cert.ReferenceIdeal.Chain.kept1 (F := Ideal) (launchContents m c)),
     (h c main_arg2).trans (Cert.ReferenceIdeal.Chain.kept2 (F := Ideal) (launchContents m c)),
     (h c main_arg3).trans (Cert.ReferenceIdeal.Chain.kept3 (F := Ideal) (launchContents m c)),
     (h c main_arg4).trans (Cert.ReferenceIdeal.Chain.kept4 (F := Ideal) (launchContents m c)),
     (h c main_arg5).trans (Cert.ReferenceIdeal.Chain.kept5 (F := Ideal) (launchContents m c)),
     (h c main_arg6).trans (Cert.ReferenceIdeal.Chain.kept6 (F := Ideal) (launchContents m c)),
     (h c main_arg7).trans (Cert.ReferenceIdeal.Chain.kept7 (F := Ideal) (launchContents m c)),
     (h c main_arg8).trans (Cert.ReferenceIdeal.Chain.kept8 (F := Ideal) (launchContents m c)),
     (h c main_arg9).trans (Cert.ReferenceIdeal.Chain.kept9 (F := Ideal) (launchContents m c))⟩)
    (Cert.ReferenceIdeal.ValueP.run_after (F := Ideal) m ρ)

end Cert.ReferenceIdeal.RefValue

namespace Cert.Proof

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing: the idealized kernel is the kernel's own text read on the extended reals. -/
theorem preserves : Cert.preserves_Kernel_KernelIdeal := trivial

/-- Both programs end with the network of Layers.lean at the arguments: the kernel's six regions leave one layer each
    (three matrix products, two bias-and-relu maps, the bias and log-softmax), its host stretches are the reference's own
    adjacency products, and the reference's operations compose to the same ten layers. -/
theorem algebraic : Cert.algebraic_KernelIdeal_ReferenceIdeal := by
  intro m ρ m' ρ' _ hagree
  refine ⟨_, (θ_run Cert.KernelIdeal.defs _ _).mono (fun _ h c => ⟨(h c).1.trans
      (Cert.KernelIdeal.Chain.result m ρ Cert.KernelIdeal.Dense0.final Cert.KernelIdeal.Relu1.final Cert.KernelIdeal.Dense2.final
        Cert.KernelIdeal.Relu3.final Cert.KernelIdeal.Dense4.final Cert.KernelIdeal.LogSoftmax5.final c), (h c).2⟩)
      (Cert.KernelIdeal.Named.run_named (F := Ideal) m ρ), ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
